-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩

abbrev nBuf : Space → Nat
  | .hbm => 20
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S128x256, .bf16⟩
  | .hbm, ⟨12, _⟩ => ⟨S128x256, .f32⟩
  | .hbm, ⟨13, _⟩ => ⟨S128x256, .bf16⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S10000x128, .f32⟩
  | .hbm, ⟨19, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .bf16⟩
  | .local _ .vmem, ⟨4, _⟩ => ⟨S128x256, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | .local _ .vmem, ⟨13, _⟩ => ⟨S10000x256, .bf16⟩
  | .local _ .vmem, ⟨14, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_7 : BitVec 32 := 0#32
  let v14 : BitVec 1 := Scalar.cmpi .eq arg0 c0_i32_7
  let v15 : BitVec 32 := Scalar.extui v14
  let c0_i32_8 : BitVec 32 := 0#32
  let v16 : BitVec 1 := Scalar.cmpi .ne v15 c0_i32_8
  v16

def k0_off1 (i : grid0.Coords) : Fin 2 → Nat :=
  let arg1 : BitVec 32 := BitVec.ofNat 32 (i 1).val
  let c400_i32 : BitVec 32 := 400#32
  let v34 : BitVec 32 := Scalar.muli arg1 c400_i32
  let v35 : Index := Scalar.indexCast v34
  let c0_15 : Index := 0#32
  ![v35.toNat, 0]
def k0_cond4 (i : grid0.Coords) : BitVec 1 :=
  let arg0 : BitVec 32 := BitVec.ofNat 32 (i 0).val
  let c1_i32_9 : BitVec 32 := 1#32
  let v17 : BitVec 1 := Scalar.cmpi .eq arg0 c1_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let v2 : BitVec 32 := Scalar.select v0 arg1 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let c24_i32_0 : BitVec 32 := 24#32
  let v2 : BitVec 32 := Scalar.select v0 c24_i32_0 v1
  let c0_i32_1 : BitVec 32 := 0#32
  let c0_i32_2 : BitVec 32 := 0#32
  ![v2.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let c24_i32_0 : BitVec 32 := 24#32
  let v2 : BitVec 32 := Scalar.select v0 c24_i32_0 v1
  let c0_i32_1 : BitVec 32 := 0#32
  let c0_i32_2 : BitVec 32 := 0#32
  ![v2.toNat, c0_i32_1.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  concatenates_S128x128_S128x128_S128x256_d1 : Shape.Concatenates [S128x128, S128x128] S128x256 1
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  slices_S400x256_o0_0_S400x128 : S400x256.Slices ![0, 0] S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  slices_S400x256_o0_128_S400x128 : S400x256.Slices ![0, 128] S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x256_S10000x256_1_0_0_1_n_n_wf : DotDims.WF S10000x128 S128x256 S10000x256 [1] [0] [0] [1] [] []
  dot_S400x10000_S10000x256_S400x256_1_0_0_1_n_n_wf : DotDims.WF S400x10000 S10000x256 S400x256 [1] [0] [0] [1] [] []
  hrank0 : 0 < grid0.rank
  k0_off1_inb : ∀ i : grid0.Coords, ∀ (k0_h3 : k0_cond3 i = 1#1), ∀ a, (k0_off1 i) a + S400x128.size a ≤ S10000x128.size a
  k0_off1_packedbf16 : ∀ i : grid0.Coords, ∀ (k0_h3 : k0_cond3 i = 1#1), (Rect.unit (s := S10000x128) (k0_off1 i) S400x128.size (k0_off1_inb i k0_h3)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .f32 = 32 ∨ (Rect.block (s := S10000x128) S400x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x128.size a ≤ S10000x128.size a
  hwx0_9 : ∀ i : grid0.Coords, EltTy.bits .f32 = 32 ∨ (Rect.block (s := S10000x128) S400x128.size (cc0_transform_9 i) (hinb0_9 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | 9 => fun i => !(k0_cond4 i == 1#1) | ⟨_ + 10, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Kernel.Shared.lean ====
/-
  The grid of the one pallas_call has 50 points, walked in order: points 0..24 are the first pass (the
  gated hidden layer, one 400-row slab of it per point), points 25..49 the second pass (the two output
  heads, one 400-row block of each per point, in reverse block order). The body has four conditionals;
  over the grid they select four cases:
    point 0        : compute the first support matrix, then a slab of the hidden layer;
    points 1..24   : a slab of the hidden layer;
    point 25       : compute the second support matrix from the whole hidden layer, then an output block;
    points 26..49  : an output block.
  This module decides those conditions in closed form and fixes the names of the staging and scratch
  buffers the case-by-case runs of the body are stated over.
-/
import proofs.«137288_g73933567034016_fold_wed_c4_870_19_alg».proof.Proof.Gen.Kernel.Launch
import proofs.«137288_g73933567034016_fold_wed_c4_870_19_alg».proof.Proof.Gen.Kernel.Skeleton
import proofs.«137288_g73933567034016_fold_wed_c4_870_19_alg».proof.Proof.Gen.Kernel.Points
import proofs.«137288_g73933567034016_fold_wed_c4_870_19_alg».proof.Proof.Gen.Kernel.Frame
import Idealize.ShloMosaic.Lib.Pipeline.FrameBody
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, decided over the grid -/

/-- First conditional: first pass and first block (the first support matrix is computed here). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- Second conditional: second pass and first block (the second support matrix is computed here). -/
abbrev cond0_1 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcond0_1 : ∀ t : Fin cfg0.N, cond0_1 (grid0.coords t) ↔ t.val = 25 :=
  (by decide +kernel : ∀ t : Fin grid0.N, cond0_1 (grid0.coords t) ↔ t.val = 25)

/-- Third conditional: the first pass (a slab of the hidden layer is stored). -/
abbrev cond0_2 (i : grid0.Coords) : Prop := k0_cond3 i = 1#1
theorem hcond0_2 : ∀ t : Fin cfg0.N, cond0_2 (grid0.coords t) ↔ t.val < 25 :=
  (by decide +kernel : ∀ t : Fin grid0.N, cond0_2 (grid0.coords t) ↔ t.val < 25)

/-- Fourth conditional: the second pass (a block of each output is stored). -/
abbrev cond0_3 (i : grid0.Coords) : Prop := k0_cond4 i = 1#1
theorem hcond0_3 : ∀ t : Fin cfg0.N, cond0_3 (grid0.coords t) ↔ 25 ≤ t.val :=
  (by decide +kernel : ∀ t : Fin grid0.N, cond0_3 (grid0.coords t) ↔ 25 ≤ t.val)

/-- The slab of the hidden layer stored at a point of the first pass starts at row 400 times the point. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- In the first pass the outputs are idle and nothing is written back. -/
theorem idleAt0_8 : ∀ t : Fin cfg0.N, t.val < 25 → cfg0.idle 8 (grid0.coords t) = true := by decide +kernel
theorem idleAt0_9 : ∀ t : Fin cfg0.N, t.val < 25 → cfg0.idle 9 (grid0.coords t) = true := by decide +kernel
theorem noFlush0_8 : ∀ t : Fin cfg0.N, t.val < 25 → (cfg0.win 8).flush t = false := by decide +kernel
theorem noFlush0_9 : ∀ t : Fin cfg0.N, t.val < 25 → (cfg0.win 9).flush t = false := by decide +kernel
/-- In the second pass the outputs are live, and every point writes its block back. -/
theorem liveAt0_8 : ∀ t : Fin cfg0.N, 25 ≤ t.val → cfg0.idle 8 (grid0.coords t) = false := by decide +kernel
theorem liveAt0_9 : ∀ t : Fin cfg0.N, 25 ≤ t.val → cfg0.idle 9 (grid0.coords t) = false := by decide +kernel
theorem flush0_8 : ∀ t : Fin cfg0.N, (cfg0.win 8).flush t = true ↔ 25 ≤ t.val := by decide +kernel
theorem flush0_9 : ∀ t : Fin cfg0.N, (cfg0.win 9).flush t = true ↔ 25 ≤ t.val := by decide +kernel

/-! ## The staging and scratch buffers the body is called on -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S400x128 .f32 := win0_9.stage (cfg0.slots t 9)
abbrev hs0_9 (t : Fin cfg0.N) : (ms0_9 t).IsWhole := hstage0_9 ((cfg0.slots t 9).cast nbuf0_9)
/-- The support-matrix scratch (10000 x 256) and the hidden-layer scratch (10000 x 128). -/
abbrev scM0_0 : Memref sig .tc .vmem S10000x256 .bf16 := Memref.whole cc0_scratch0
abbrev scM0_1 : Memref sig .tc .vmem S10000x128 .bf16 := Memref.whole cc0_scratch1

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The zero offsets of a whole-buffer rectangle, however spelt. -/
theorem hz2 : (![0, 0] : Fin 2 → ℕ) = fun _ => 0 := by funext a; fin_cases a <;> rfl

end Cert.Kernel.Hand

end
-- ==== Proof.Kernel.RunA.lean ====
/- The first point: the first support matrix is computed from the feature block and the first weight block and stored whole into its scratch; then, from the adjacency block, that matrix and the two bias rows, the first 400-row slab of the hidden layer is stored into the hidden-layer scratch, whose other rows keep what they held. -/
import proofs.«137288_g73933567034016_fold_wed_c4_870_19_alg».proof.Proof.Kernel.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point: the first support matrix is computed from the feature block and the first weight block and stored whole into its scratch; then, from the adjacency block, that matrix and the two bias rows, the first 400-row slab of the hidden layer is stored into the hidden-layer scratch, whose other rows keep what they held.
    Stated as the body's triple on whole buffers at named contents; the list of stores each written buffer ends
    with is found by running the body. -/
noncomputable def kernelRun0_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : cond0_0 i) (hc1 : ¬cond0_1 i) (hc2 : cond0_2 i) (hc3 : ¬cond0_3 i)
    (x2 : Vec F S400x10000 .f32) (x3 : Vec F S10000x128 .f32) (x4 : Vec F S128x256 .bf16) (x6 : Vec F S1x128 .f32) (x7 : Vec F S1x128 .f32) (xs0 : Vec F S10000x256 .bf16) (xs1 : Vec F S10000x128 .bf16) :
    Σ' (LS0 : List (View.Piece (Elt F) S10000x256 .bf16)), { LS1 : List (View.Piece (Elt F) S10000x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg12 fullShare xs0 ∗ owns (c : Thread nD τ) arg13 fullShare xs1
            ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f6, %hf6, H6⟩, ⟨%f7, %hf7, H7⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg6.eq_unread hf6; obtain rfl := harg7.eq_unread hf7; obtain rfl := harg12.eq_unread hfs0; obtain rfl := harg13.eq_unread hfs1
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [HS0]; · iexact HS0
    iexact HS1

/-- The one store case A leaves in buffer 12: its rectangle and its value as a function of the contents the body read. -/
theorem piece0_A_12 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : cond0_0 i) (hc1 : ¬cond0_1 i) (hc2 : cond0_2 i) (hc3 : ¬cond0_3 i)
    (x2 : Vec F S400x10000 .f32) (x3 : Vec F S10000x128 .f32) (x4 : Vec F S128x256 .bf16) (x6 : Vec F S1x128 .f32) (x7 : Vec F S1x128 .f32) (xs0 : Vec F S10000x256 .bf16) (xs1 : Vec F S10000x128 .bf16) :
    (kernelRun0_A c i arg2 harg2 arg3 harg3 arg4 harg4 arg5 harg5 arg6 harg6 arg7 harg7 arg8 harg8 arg9 harg9 arg10 harg10 arg11 harg11 arg12 harg12 arg13 harg13 hc0 hc1 hc2 hc3 x2 x3 x4 x6 x7 xs0 xs1).1
      = [⟨Rect.unit (s := S10000x256) ![0, 0] S10000x256.size inb_S10000x256_S10000x256_0_0, k0_pay1 x3 x4⟩] := by
  unfold kernelRun0_A; dsimp only
  try sl_unfold_words
  simp only [View.readAt_eq_ld, Memref.IsWhole.read_unread, View.ld_unit_zero (S := S400x10000) hz2, View.ld_unit_zero (S := S10000x128) hz2, View.ld_unit_zero (S := S128x256) hz2, View.ld_unit_zero (S := S1x128) hz2, View.ld_unit_zero (S := S10000x256) hz2, View.readCov_unit_zero (S := S10000x256) _ hz2]

/-- The one store case A leaves in buffer 13: its rectangle and its value as a function of the contents the body read. -/
theorem piece0_A_13 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : cond0_0 i) (hc1 : ¬cond0_1 i) (hc2 : cond0_2 i) (hc3 : ¬cond0_3 i)
    (x2 : Vec F S400x10000 .f32) (x3 : Vec F S10000x128 .f32) (x4 : Vec F S128x256 .bf16) (x6 : Vec F S1x128 .f32) (x7 : Vec F S1x128 .f32) (xs0 : Vec F S10000x256 .bf16) (xs1 : Vec F S10000x128 .bf16) :
    (kernelRun0_A c i arg2 harg2 arg3 harg3 arg4 harg4 arg5 harg5 arg6 harg6 arg7 harg7 arg8 harg8 arg9 harg9 arg10 harg10 arg11 harg11 arg12 harg12 arg13 harg13 hc0 hc1 hc2 hc3 x2 x3 x4 x6 x7 xs0 xs1).2.1
      = [⟨Rect.unit (s := S10000x128) (k0_off1 i) S400x128.size (k0_off1_inb i hc2), k0_pay4 x2 (k0_pay1 x3 x4) x6 x7⟩] := by
  unfold kernelRun0_A; dsimp only
  try sl_unfold_words
  simp only [View.readAt_eq_ld, Memref.IsWhole.read_unread, View.ld_unit_zero (S := S400x10000) hz2, View.ld_unit_zero (S := S10000x128) hz2, View.ld_unit_zero (S := S128x256) hz2, View.ld_unit_zero (S := S1x128) hz2, View.ld_unit_zero (S := S10000x256) hz2, View.readCov_unit_zero (S := S10000x256) _ hz2]

/-- Case A with each written buffer's one store written out. -/
theorem run0_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : cond0_0 i) (hc1 : ¬cond0_1 i) (hc2 : cond0_2 i) (hc3 : ¬cond0_3 i)
    (x2 : Vec F S400x10000 .f32) (x3 : Vec F S10000x128 .f32) (x4 : Vec F S128x256 .bf16) (x6 : Vec F S1x128 .f32) (x7 : Vec F S1x128 .f32) (xs0 : Vec F S10000x256 .bf16) (xs1 : Vec F S10000x128 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg12 fullShare xs0 ∗ owns (c : Thread nD τ) arg13 fullShare xs1
        ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ (arg12.view.loc (c : Thread nD τ) ↦[arg12.view.set]{fullShare} arg12.view.writes (Elt F) (harg12.unread xs0) [(⟨Rect.unit (s := S10000x256) ![0, 0] S10000x256.size inb_S10000x256_S10000x256_0_0, k0_pay1 x3 x4⟩ : View.Piece (Elt F) S10000x256 .bf16)]) ∗ (arg13.view.loc (c : Thread nD τ) ↦[arg13.view.set]{fullShare} arg13.view.writes (Elt F) (harg13.unread xs1) [(⟨Rect.unit (s := S10000x128) (k0_off1 i) S400x128.size (k0_off1_inb i hc2), k0_pay4 x2 (k0_pay1 x3 x4) x6 x7⟩ : View.Piece (Elt F) S10000x128 .bf16)])) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
  have h := (kernelRun0_A c i arg2 harg2 arg3 harg3 arg4 harg4 arg5 harg5 arg6 harg6 arg7 harg7 arg8 harg8 arg9 harg9 arg10 harg10 arg11 harg11 arg12 harg12 arg13 harg13 hc0 hc1 hc2 hc3 x2 x3 x4 x6 x7 xs0 xs1).2.2 E K
  rw [piece0_A_13, piece0_A_12] at h
  exact h

end Cert.Kernel.Hand

end
-- ==== Proof.Kernel.RunB.lean ====
/- A later point of the first pass: from the adjacency block, the first support matrix in its scratch and the two bias rows, one 400-row slab of the hidden layer is stored into the hidden-layer scratch; the other rows of that scratch keep what they held. -/
import proofs.«137288_g73933567034016_fold_wed_c4_870_19_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later point of the first pass: from the adjacency block, the first support matrix in its scratch and the two bias rows, one 400-row slab of the hidden layer is stored into the hidden-layer scratch; the other rows of that scratch keep what they held.
    Stated as the body's triple on whole buffers at named contents; the list of stores each written buffer ends
    with is found by running the body. -/
noncomputable def kernelRun0_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : cond0_2 i) (hc3 : ¬cond0_3 i)
    (x2 : Vec F S400x10000 .f32) (x6 : Vec F S1x128 .f32) (x7 : Vec F S1x128 .f32) (xs0 : Vec F S10000x256 .bf16) (xs1 : Vec F S10000x128 .bf16) :
    { LS1 : List (View.Piece (Elt F) S10000x128 .bf16) //
      ∀ (E : Set ℕ) (K : PUnit → sProp 𝕄),
        iprop(owns (c : Thread nD τ) arg2 fullShare x2 ∗ owns (c : Thread nD τ) arg6 fullShare x6 ∗ owns (c : Thread nD τ) arg7 fullShare x7 ∗ owns (c : Thread nD τ) arg12 fullShare xs0 ∗ owns (c : Thread nD τ) arg13 fullShare xs1
            ∗ (iprop(owns (c : Thread nD τ) arg2 fullShare x2 ∗ owns (c : Thread nD τ) arg6 fullShare x6 ∗ owns (c : Thread nD τ) arg7 fullShare x7 ∗ owns (c : Thread nD τ) arg12 fullShare xs0 ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f2, %hf2, H2⟩, ⟨%f6, %hf6, H6⟩, ⟨%f7, %hf7, H7⟩, ⟨%fs0, %hfs0, HS0⟩, ⟨%fs1, %hfs1, HS1⟩, Hk⟩
    obtain rfl := harg2.eq_unread hf2; obtain rfl := harg6.eq_unread hf6; obtain rfl := harg7.eq_unread hf7; obtain rfl := harg12.eq_unread hfs0; obtain rfl := harg13.eq_unread hfs1
    sl_exec (disch := first | exact hc0 | exact hc1 | exact hc2 | exact hc3)
    sl_step
    iapply Hk
    isplitl [H2]
    · iexists _; isplitr; · ipureintro; exact harg2.read_unread _
      iexact H2
    isplitl [H6]
    · iexists _; isplitr; · ipureintro; exact harg6.read_unread _
      iexact H6
    isplitl [H7]
    · iexists _; isplitr; · ipureintro; exact harg7.read_unread _
      iexact H7
    isplitl [HS0]
    · iexists _; isplitr; · ipureintro; exact harg12.read_unread _
      iexact HS0
    iexact HS1

/-- The one store case B leaves in buffer 13: its rectangle and its value as a function of the contents the body read. -/
theorem piece0_B_13 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : cond0_2 i) (hc3 : ¬cond0_3 i)
    (x2 : Vec F S400x10000 .f32) (x6 : Vec F S1x128 .f32) (x7 : Vec F S1x128 .f32) (xs0 : Vec F S10000x256 .bf16) (xs1 : Vec F S10000x128 .bf16) :
    (kernelRun0_B c i arg2 harg2 arg3 harg3 arg4 harg4 arg5 harg5 arg6 harg6 arg7 harg7 arg8 harg8 arg9 harg9 arg10 harg10 arg11 harg11 arg12 harg12 arg13 harg13 hc0 hc1 hc2 hc3 x2 x6 x7 xs0 xs1).1
      = [⟨Rect.unit (s := S10000x128) (k0_off1 i) S400x128.size (k0_off1_inb i hc2), k0_pay4 x2 xs0 x6 x7⟩] := by
  unfold kernelRun0_B; dsimp only
  try sl_unfold_words
  simp only [View.readAt_eq_ld, Memref.IsWhole.read_unread, View.ld_unit_zero (S := S400x10000) hz2, View.ld_unit_zero (S := S1x128) hz2, View.ld_unit_zero (S := S10000x256) hz2, View.ld_unit_zero (S := S10000x128) hz2, View.readCov_unit_zero (S := S10000x256) _ hz2]

/-- Case B with each written buffer's one store written out. -/
theorem run0_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : cond0_2 i) (hc3 : ¬cond0_3 i)
    (x2 : Vec F S400x10000 .f32) (x6 : Vec F S1x128 .f32) (x7 : Vec F S1x128 .f32) (xs0 : Vec F S10000x256 .bf16) (xs1 : Vec F S10000x128 .bf16)
    (E : Set ℕ) (K : PUnit → sProp 𝕄) :
    iprop(owns (c : Thread nD τ) arg2 fullShare x2 ∗ owns (c : Thread nD τ) arg6 fullShare x6 ∗ owns (c : Thread nD τ) arg7 fullShare x7 ∗ owns (c : Thread nD τ) arg12 fullShare xs0 ∗ owns (c : Thread nD τ) arg13 fullShare xs1
        ∗ (iprop(owns (c : Thread nD τ) arg2 fullShare x2 ∗ owns (c : Thread nD τ) arg6 fullShare x6 ∗ owns (c : Thread nD τ) arg7 fullShare x7 ∗ owns (c : Thread nD τ) arg12 fullShare xs0 ∗ (arg13.view.loc (c : Thread nD τ) ↦[arg13.view.set]{fullShare} arg13.view.writes (Elt F) (harg13.unread xs1) [(⟨Rect.unit (s := S10000x128) (k0_off1 i) S400x128.size (k0_off1_inb i hc2), k0_pay4 x2 xs0 x6 x7⟩ : View.Piece (Elt F) S10000x128 .bf16)])) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
  have h := (kernelRun0_B c i arg2 harg2 arg3 harg3 arg4 harg4 arg5 harg5 arg6 harg6 arg7 harg7 arg8 harg8 arg9 harg9 arg10 harg10 arg11 harg11 arg12 harg12 arg13 harg13 hc0 hc1 hc2 hc3 x2 x6 x7 xs0 xs1).2 E K
  rw [piece0_B_13] at h
  exact h

end Cert.Kernel.Hand

end
-- ==== Proof.Kernel.RunC.lean ====
/- The first point of the second pass: the second support matrix is computed from the whole hidden layer and the second weight block and stored whole into its scratch; then, from the adjacency block, that matrix and the two bias rows, a block of each output is stored. -/
import proofs.«137288_g73933567034016_fold_wed_c4_870_19_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point of the second pass: the second support matrix is computed from the whole hidden layer and the second weight block and stored whole into its scratch; then, from the adjacency block, that matrix and the two bias rows, a block of each output is stored.
    Stated as the body's triple on whole buffers at named contents; the list of stores each written buffer ends
    with is found by running the body. -/
noncomputable def kernelRun0_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16) :
    Σ' (LS0 : List (View.Piece (Elt F) S10000x256 .bf16)), Σ' (L10 : List (View.Piece (Elt F) S400x128 .f32)), { L11 : List (View.Piece (Elt F) S400x128 .f32) //
      ∀ (E : Set ℕ) (K : PUnit → sProp 𝕄),
        iprop(owns (c : Thread nD τ) arg2 fullShare x2 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xs0 ∗ owns (c : Thread nD τ) arg13 fullShare xs1
            ∗ (iprop(owns (c : Thread nD τ) arg2 fullShare x2 ∗ owns (c : Thread nD τ) arg5 fullShare x5 ∗ owns (c : Thread nD τ) arg8 fullShare x8 ∗ owns (c : Thread nD τ) arg9 fullShare x9 ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread xs0) LS0) ∗ owns (c : Thread nD τ) arg13 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__gcn_kernel_eq_skeleton]; unfold cc0__gcn_kernel_skel
    unfold owns
    iintro ⟨⟨%f2, %hf2, H2⟩, ⟨%f5, %hf5, H5⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf2; obtain rfl := harg5.eq_unread hf5; obtain rfl := harg8.eq_unread hf8; obtain rfl := harg9.eq_unread hf9; obtain rfl := harg10.eq_unread hf10; obtain rfl := harg11.eq_unread hf11; obtain rfl := harg12.eq_unread hfs0; obtain rfl := harg13.eq_unread hfs1
    sl_exec (disch := first | exact hc0 | exact hc1 | exact hc2 | exact hc3)
    sl_step
    iapply Hk
    isplitl [H2]
    · iexists _; isplitr; · ipureintro; exact harg2.read_unread _
      iexact H2
    isplitl [H5]
    · iexists _; isplitr; · ipureintro; exact harg5.read_unread _
      iexact H5
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    isplitl [HS0]; · iexact HS0
    iexists _; isplitr; · ipureintro; exact harg13.read_unread _
    iexact HS1

/-- The one store case C leaves in buffer 12: its rectangle and its value as a function of the contents the body read. -/
theorem piece0_C_12 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x2 x5 x8 x9 x10 x11 xs0 xs1).1
      = [⟨Rect.unit (s := S10000x256) ![0, 0] S10000x256.size inb_S10000x256_S10000x256_0_0, k0_pay2 xs1 x5⟩] := by
  unfold kernelRun0_C; dsimp only
  try sl_unfold_words
  simp only [View.readAt_eq_ld, Memref.IsWhole.read_unread, View.ld_unit_zero (S := S400x10000) hz2, View.ld_unit_zero (S := S128x256) hz2, View.ld_unit_zero (S := S1x128) hz2, View.ld_unit_zero (S := S400x128) hz2, View.ld_unit_zero (S := S10000x256) hz2, View.ld_unit_zero (S := S10000x128) hz2, View.readCov_unit_zero (S := S10000x256) _ hz2]

/-- The one store case C leaves in buffer 10: its rectangle and its value as a function of the contents the body read. -/
theorem piece0_C_10 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x2 x5 x8 x9 x10 x11 xs0 xs1).2.1
      = [⟨Rect.unit (s := S400x128) ![0, 0] S400x128.size inb_S400x128_S400x128_0_0, k0_pay5 x2 (k0_pay2 xs1 x5) x8⟩] := by
  unfold kernelRun0_C; dsimp only
  try sl_unfold_words
  simp only [View.readAt_eq_ld, Memref.IsWhole.read_unread, View.ld_unit_zero (S := S400x10000) hz2, View.ld_unit_zero (S := S128x256) hz2, View.ld_unit_zero (S := S1x128) hz2, View.ld_unit_zero (S := S400x128) hz2, View.ld_unit_zero (S := S10000x256) hz2, View.ld_unit_zero (S := S10000x128) hz2, View.readCov_unit_zero (S := S10000x256) _ hz2]

/-- The one store case C leaves in buffer 11: its rectangle and its value as a function of the contents the body read. -/
theorem piece0_C_11 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x2 x5 x8 x9 x10 x11 xs0 xs1).2.2.1
      = [⟨Rect.unit (s := S400x128) ![0, 0] S400x128.size inb_S400x128_S400x128_0_0, k0_pay6 x2 (k0_pay2 xs1 x5) x9⟩] := by
  unfold kernelRun0_C; dsimp only
  try sl_unfold_words
  simp only [View.readAt_eq_ld, Memref.IsWhole.read_unread, View.ld_unit_zero (S := S400x10000) hz2, View.ld_unit_zero (S := S128x256) hz2, View.ld_unit_zero (S := S1x128) hz2, View.ld_unit_zero (S := S400x128) hz2, View.ld_unit_zero (S := S10000x256) hz2, View.ld_unit_zero (S := S10000x128) hz2, View.readCov_unit_zero (S := S10000x256) _ hz2]

/-- Case C with each written buffer's one store written out. -/
theorem run0_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16)
    (E : Set ℕ) (K : PUnit → sProp 𝕄) :
    iprop(owns (c : Thread nD τ) arg2 fullShare x2 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xs0 ∗ owns (c : Thread nD τ) arg13 fullShare xs1
        ∗ (iprop(owns (c : Thread nD τ) arg2 fullShare x2 ∗ owns (c : Thread nD τ) arg5 fullShare x5 ∗ owns (c : Thread nD τ) arg8 fullShare x8 ∗ owns (c : Thread nD τ) arg9 fullShare x9 ∗ (arg10.view.loc (c : Thread nD τ) ↦[arg10.view.set]{fullShare} arg10.view.writes (Elt F) (harg10.unread x10) [(⟨Rect.unit (s := S400x128) ![0, 0] S400x128.size inb_S400x128_S400x128_0_0, k0_pay5 x2 (k0_pay2 xs1 x5) x8⟩ : View.Piece (Elt F) S400x128 .f32)]) ∗ (arg11.view.loc (c : Thread nD τ) ↦[arg11.view.set]{fullShare} arg11.view.writes (Elt F) (harg11.unread x11) [(⟨Rect.unit (s := S400x128) ![0, 0] S400x128.size inb_S400x128_S400x128_0_0, k0_pay6 x2 (k0_pay2 xs1 x5) x9⟩ : View.Piece (Elt F) S400x128 .f32)]) ∗ (arg12.view.loc (c : Thread nD τ) ↦[arg12.view.set]{fullShare} arg12.view.writes (Elt F) (harg12.unread xs0) [(⟨Rect.unit (s := S10000x256) ![0, 0] S10000x256.size inb_S10000x256_S10000x256_0_0, k0_pay2 xs1 x5⟩ : View.Piece (Elt F) S10000x256 .bf16)]) ∗ owns (c : Thread nD τ) arg13 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
  have h := (kernelRun0_C c i arg2 harg2 arg3 harg3 arg4 harg4 arg5 harg5 arg6 harg6 arg7 harg7 arg8 harg8 arg9 harg9 arg10 harg10 arg11 harg11 arg12 harg12 arg13 harg13 hc0 hc1 hc2 hc3 x2 x5 x8 x9 x10 x11 xs0 xs1).2.2.2 E K
  rw [piece0_C_11, piece0_C_10, piece0_C_12] at h
  exact h

end Cert.Kernel.Hand

end
-- ==== Proof.Kernel.RunD.lean ====
/- A later point of the second pass: from the adjacency block, the second support matrix in its scratch and the two bias rows, a block of each output is stored. -/
import proofs.«137288_g73933567034016_fold_wed_c4_870_19_alg».proof.Proof.Kernel.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later point of the second pass: from the adjacency block, the second support matrix in its scratch and the two bias rows, a block of each output is stored.
    Stated as the body's triple on whole buffers at named contents; the list of stores each written buffer ends
    with is found by running the body. -/
noncomputable def kernelRun0_D (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : ¬cond0_2 i) (hc3 : cond0_3 i)
    (x2 : Vec F S400x10000 .f32) (x8 : Vec F S1x128 .f32) (x9 : Vec F S1x128 .f32) (x10 : Vec F S400x128 .f32) (x11 : Vec F S400x128 .f32) (xs0 : Vec F S10000x256 .bf16) :
    Σ' (L10 : List (View.Piece (Elt F) S400x128 .f32)), { L11 : List (View.Piece (Elt F) S400x128 .f32) //
      ∀ (E : Set ℕ) (K : PUnit → sProp 𝕄),
        iprop(owns (c : Thread nD τ) arg2 fullShare x2 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xs0
            ∗ (iprop(owns (c : Thread nD τ) arg2 fullShare x2 ∗ owns (c : Thread nD τ) arg8 fullShare x8 ∗ owns (c : Thread nD τ) arg9 fullShare x9 ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ owns (c : Thread nD τ) arg12 fullShare xs0) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f2, %hf2, H2⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf2; obtain rfl := harg8.eq_unread hf8; obtain rfl := harg9.eq_unread hf9; obtain rfl := harg10.eq_unread hf10; obtain rfl := harg11.eq_unread hf11; obtain rfl := harg12.eq_unread hfs0
    sl_exec (disch := first | exact hc0 | exact hc1 | exact hc2 | exact hc3)
    sl_step
    iapply Hk
    isplitl [H2]
    · iexists _; isplitr; · ipureintro; exact harg2.read_unread _
      iexact H2
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    iexists _; isplitr; · ipureintro; exact harg12.read_unread _
    iexact HS0

/-- The one store case D leaves in buffer 10: its rectangle and its value as a function of the contents the body read. -/
theorem piece0_D_10 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : ¬cond0_2 i) (hc3 : cond0_3 i)
    (x2 : Vec F S400x10000 .f32) (x8 : Vec F S1x128 .f32) (x9 : Vec F S1x128 .f32) (x10 : Vec F S400x128 .f32) (x11 : Vec F S400x128 .f32) (xs0 : Vec F S10000x256 .bf16) :
    (kernelRun0_D c i arg2 harg2 arg3 harg3 arg4 harg4 arg5 harg5 arg6 harg6 arg7 harg7 arg8 harg8 arg9 harg9 arg10 harg10 arg11 harg11 arg12 harg12 arg13 harg13 hc0 hc1 hc2 hc3 x2 x8 x9 x10 x11 xs0).1
      = [⟨Rect.unit (s := S400x128) ![0, 0] S400x128.size inb_S400x128_S400x128_0_0, k0_pay5 x2 xs0 x8⟩] := by
  unfold kernelRun0_D; dsimp only
  try sl_unfold_words
  simp only [View.readAt_eq_ld, Memref.IsWhole.read_unread, View.ld_unit_zero (S := S400x10000) hz2, View.ld_unit_zero (S := S1x128) hz2, View.ld_unit_zero (S := S400x128) hz2, View.ld_unit_zero (S := S10000x256) hz2, View.readCov_unit_zero (S := S10000x256) _ hz2]

/-- The one store case D leaves in buffer 11: its rectangle and its value as a function of the contents the body read. -/
theorem piece0_D_11 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : ¬cond0_2 i) (hc3 : cond0_3 i)
    (x2 : Vec F S400x10000 .f32) (x8 : Vec F S1x128 .f32) (x9 : Vec F S1x128 .f32) (x10 : Vec F S400x128 .f32) (x11 : Vec F S400x128 .f32) (xs0 : Vec F S10000x256 .bf16) :
    (kernelRun0_D c i arg2 harg2 arg3 harg3 arg4 harg4 arg5 harg5 arg6 harg6 arg7 harg7 arg8 harg8 arg9 harg9 arg10 harg10 arg11 harg11 arg12 harg12 arg13 harg13 hc0 hc1 hc2 hc3 x2 x8 x9 x10 x11 xs0).2.1
      = [⟨Rect.unit (s := S400x128) ![0, 0] S400x128.size inb_S400x128_S400x128_0_0, k0_pay6 x2 xs0 x9⟩] := by
  unfold kernelRun0_D; dsimp only
  try sl_unfold_words
  simp only [View.readAt_eq_ld, Memref.IsWhole.read_unread, View.ld_unit_zero (S := S400x10000) hz2, View.ld_unit_zero (S := S1x128) hz2, View.ld_unit_zero (S := S400x128) hz2, View.ld_unit_zero (S := S10000x256) hz2, View.readCov_unit_zero (S := S10000x256) _ hz2]

/-- Case D with each written buffer's one store written out. -/
theorem run0_D (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : ¬cond0_2 i) (hc3 : cond0_3 i)
    (x2 : Vec F S400x10000 .f32) (x8 : Vec F S1x128 .f32) (x9 : Vec F S1x128 .f32) (x10 : Vec F S400x128 .f32) (x11 : Vec F S400x128 .f32) (xs0 : Vec F S10000x256 .bf16)
    (E : Set ℕ) (K : PUnit → sProp 𝕄) :
    iprop(owns (c : Thread nD τ) arg2 fullShare x2 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xs0
        ∗ (iprop(owns (c : Thread nD τ) arg2 fullShare x2 ∗ owns (c : Thread nD τ) arg8 fullShare x8 ∗ owns (c : Thread nD τ) arg9 fullShare x9 ∗ (arg10.view.loc (c : Thread nD τ) ↦[arg10.view.set]{fullShare} arg10.view.writes (Elt F) (harg10.unread x10) [(⟨Rect.unit (s := S400x128) ![0, 0] S400x128.size inb_S400x128_S400x128_0_0, k0_pay5 x2 xs0 x8⟩ : View.Piece (Elt F) S400x128 .f32)]) ∗ (arg11.view.loc (c : Thread nD τ) ↦[arg11.view.set]{fullShare} arg11.view.writes (Elt F) (harg11.unread x11) [(⟨Rect.unit (s := S400x128) ![0, 0] S400x128.size inb_S400x128_S400x128_0_0, k0_pay6 x2 xs0 x9⟩ : View.Piece (Elt F) S400x128 .f32)]) ∗ owns (c : Thread nD τ) arg12 fullShare xs0) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
  have h := (kernelRun0_D c i arg2 harg2 arg3 harg3 arg4 harg4 arg5 harg5 arg6 harg6 arg7 harg7 arg8 harg8 arg9 harg9 arg10 harg10 arg11 harg11 arg12 harg12 arg13 harg13 hc0 hc1 hc2 hc3 x2 x8 x9 x10 x11 xs0).2.2 E K
  rw [piece0_D_11, piece0_D_10] at h
  exact h

end Cert.Kernel.Hand

end
-- ==== Proof.Kernel.Body.lean ====
/-
  The body of the kernel at every point of the grid, and the run of the whole program.

  What the two scratch buffers hold is a function of the argument blocks alone:
    sup1        the first support matrix, the feature block times the first (two-headed) weight block;
    hslab t     slab t of the hidden layer (400 rows): tanh of one half of (adjacency block t times sup1, plus a
                bias row) times the logistic function of the other half;
    hid         the whole hidden layer: row r is row r mod 400 of slab r div 400;
    sup2        the second support matrix, the hidden layer times the second weight block;
    mublk t, lsblk t   the block of each output stored at a point t of the second pass: one half of (adjacency
                block t times sup2) plus a bias row.
  The invariant carried from point to point says: after n >= 1 points the support scratch holds sup1 while
  n <= 25 and sup2 afterwards, and the hidden-layer scratch agrees with hid on its first 400 n rows (all of its
  rows from n = 25 on). Rows not yet written hold whatever the buffer held at entry; nothing reads them before
  point 25, where every row has been written. At a point of the first pass the stored slab lands on rows
  [400 t, 400 t + 400), which are exactly the rows whose quotient by 400 is t.
-/
import proofs.«137288_g73933567034016_fold_wed_c4_870_19_alg».proof.Proof.Kernel.RunD
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The first point of the grid, and the first point of the second pass. -/
def tFirst : Fin cfg0.N := ⟨0, lt_of_lt_of_eq (by omega : 0 < 50) N50.symm⟩
def tMid : Fin cfg0.N := ⟨25, lt_of_lt_of_eq (by omega : 25 < 50) N50.symm⟩
theorem tFirst_val : (tFirst).val = 0 := rfl
theorem tMid_val : (tMid).val = 25 := rfl
attribute [irreducible] tFirst tMid

/-! ## What the scratch buffers and the output blocks hold -/

/-- The first support matrix: the feature block times the first weight block. -/
def sup1 (c : Dev nD) : FVec F S10000x256 .bf16 := k0_pay1 (iblk m c 1 tFirst) (iblk m c 2 tFirst)

/-- Slab `t` of the hidden layer. -/
def hslab (c : Dev nD) (t : Fin cfg0.N) : FVec F S400x128 .bf16 :=
  k0_pay4 (iblk m c 0 t) (sup1 m c) (iblk m c 4 t) (iblk m c 5 t)

/-- The hidden layer: row `r` is row `r % 400` of slab `r / 400`. -/
def hid (c : Dev nD) : FVec F S10000x128 .bf16 := fun y =>
  hslab m c ⟨(y 0).val / 400, lt_of_lt_of_eq (by have := ValueIdx.idx2_lt0 y; omega : (y 0).val / 400 < 50) N50.symm⟩
    (ValueIdx.ix2 (⟨(y 0).val % 400, Nat.mod_lt _ (by omega)⟩ : Fin 400) (⟨(y 1).val, ValueIdx.idx2_lt1 y⟩ : Fin 128))

/-- The second support matrix: the hidden layer times the second weight block. -/
def sup2 (c : Dev nD) : FVec F S10000x256 .bf16 := k0_pay2 (hid m c) (iblk m c 3 tMid)

/-- The block of the first output stored at point `t`, and of the second. -/
def mublk (c : Dev nD) (t : Fin cfg0.N) : FVec F S400x128 .f32 := k0_pay5 (iblk m c 0 t) (sup2 m c) (iblk m c 6 t)
def lsblk (c : Dev nD) (t : Fin cfg0.N) : FVec F S400x128 .f32 := k0_pay6 (iblk m c 0 t) (sup2 m c) (iblk m c 7 t)

/-! ## Reading a buffer back after one store -/

/-- One store through the whole-buffer rectangle leaves its value, whatever the buffer held. -/
theorem read_writes_whole {S : Shape} {e : EltTy} {κ : Kind} {sp : Space} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

/-- Storing slab `t` on rows [400 t, 400 t + 400) of a buffer that agrees with the hidden layer on its first
    400 t rows leaves one that agrees with it on its first 400 (t + 1) rows: a row below 400 t is not touched,
    and a row r of the slab has r / 400 = t and sits at row r % 400 = r - 400 t of the slab. -/
theorem slab_step (c : Dev nD) (t : Fin cfg0.N) (ht : t.val < 25) (T : Vec F S10000x128 .bf16)
    (f : scM0_1.view.ty.Contents (Elt F)) (hf : scM0_1.view.read (Elt F) f = T)
    (hT : ∀ y : S10000x128.Idx, (y 0).val < 400 * t.val → T y = hid m c y)
    (inb : ∀ a, (k0_off1 (grid0.coords t)) a + S400x128.size a ≤ S10000x128.size a) :
    ∀ y : S10000x128.Idx, (y 0).val < 400 * (t.val + 1) →
      scM0_1.view.read (Elt F) (scM0_1.view.writes (Elt F) f
        [(⟨Rect.unit (s := S10000x128) (k0_off1 (grid0.coords t)) S400x128.size inb, hslab m c t⟩ : View.Piece (Elt F) S10000x128 .bf16)]) y
        = hid m c y := by
  intro y hy
  by_cases h : (y 0).val < 400 * t.val
  · rw [View.read_writes_cons_rows_of_not_mem scM0_1.view f inb (hslab m c t) [] y (off1_eq t ht) rfl (Or.inl h)]
    simp only [View.writes_nil]
    rw [hf]; exact hT y h
  · have hq : (y 0).val / 400 = t.val := by omega
    have hr : (y 0).val % 400 = (y 0).val - 400 * t.val := by omega
    rw [View.read_writes_cons_rows_of_mem scM0_1.view f inb (hslab m c t) [] y
      (ValueIdx.ix2 (⟨(y 0).val - 400 * t.val, by omega⟩ : Fin 400) (⟨(y 1).val, ValueIdx.idx2_lt1 y⟩ : Fin 128))
      (off1_eq t ht) (by show (y 0).val = 400 * t.val + ((y 0).val - 400 * t.val); omega) rfl]
    unfold hid
    simp only [hq, hr, Fin.eta]

/-- The scratch buffers are whole buffers. -/
abbrev hsc0 : scM0_0.IsWhole := Memref.isWhole_whole _
abbrev hsc1 : scM0_1.IsWhole := Memref.isWhole_whole _

/-- The hidden-layer buffer after slab `t` has been stored over contents `T`. -/
def tAfter (c : Dev nD) (t : Fin cfg0.N) (inb : ∀ a, (k0_off1 (grid0.coords t)) a + S400x128.size a ≤ S10000x128.size a)
    (T : Vec F S10000x128 .bf16) : Vec F S10000x128 .bf16 :=
  scM0_1.view.read (Elt F) (scM0_1.view.writes (Elt F) (hsc1.unread T)
    [(⟨Rect.unit (s := S10000x128) (k0_off1 (grid0.coords t)) S400x128.size inb,
        k0_pay4 (iblk m c 0 t) (sup1 m c) (iblk m c 4 t) (iblk m c 5 t)⟩ : View.Piece (Elt F) S10000x128 .bf16)])

/-- It agrees with the hidden layer on its first 400 (t + 1) rows if `T` did on its first 400 t. -/
theorem tAfter_inv (c : Dev nD) (t : Fin cfg0.N) (ht : t.val < 25)
    (inb : ∀ a, (k0_off1 (grid0.coords t)) a + S400x128.size a ≤ S10000x128.size a) (T : Vec F S10000x128 .bf16)
    (hT : ∀ y : S10000x128.Idx, (y 0).val < 400 * t.val → T y = hid m c y) :
    ∀ y : S10000x128.Idx, (y 0).val < 400 * (t.val + 1) → tAfter m c t inb T y = hid m c y :=
  slab_step m c t ht T (hsc1.unread T) (hsc1.read_unread T) hT inb

/-! ## The invariant carried from point to point -/

/-- After `n ≥ 1` points: the support scratch at the first support matrix through the first pass and at the
    second afterwards; the hidden-layer scratch equal to the hidden layer on its first `400 n` rows. -/
def Inv (c : Dev nD) (n : ℕ) (S : Vec F S10000x256 .bf16) (T : Vec F S10000x128 .bf16) : Prop :=
  (n ≤ 25 → S = sup1 m c) ∧ (25 < n → S = sup2 m c) ∧ ∀ y : S10000x128.Idx, (y 0).val < 400 * n → T y = hid m c y

/-- Before the first point the two scratches hold anything; afterwards they satisfy the invariant. -/
def PhiS (c : Dev nD) : (n : ℕ) → n ≤ cfg0.N → sProp 𝕄
  | 0, _ => Pipeline.ΦA spec0 c
  | n + 1, _ => iprop(iprop(∃ S, ∃ T, ⌜Inv m c (n + 1) S T⌝ ∗ owns (c : Thread nD τ) scM0_0 fullShare S ∗ owns (c : Thread nD τ) scM0_1 fullShare T) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ S, ∃ T, ⌜Inv m c (n + 1) S T⌝ ∗ owns (c : Thread nD τ) scM0_0 fullShare S ∗ owns (c : Thread nD τ) scM0_1 fullShare T) ∗ (∃ r, prngReg c r)) := rfl

theorem PhiS_pos (c : Dev nD) (n : ℕ) (h : n ≤ cfg0.N) (hz : n ≠ 0) :
    PhiS m c n h = iprop(iprop(∃ S, ∃ T, ⌜Inv m c n S T⌝ ∗ owns (c : Thread nD τ) scM0_0 fullShare S ∗ owns (c : Thread nD τ) scM0_1 fullShare T) ∗ (∃ r, prngReg c r)) := by
  cases n with
  | zero => exact absurd rfl hz
  | succ n => rfl

/-! ## The proof data of the one pipeline -/

/-- The arrays as the region finds them; after the body at point `t` every input's buffer at its block, the two
    outputs' at the blocks stored there; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => mublk m c t
    | ⟨9, _⟩ => lsblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = mublk m c t := by dsimp only [dats]
theorem after0_9 (c : Dev nD) (t : Fin cfg0.N) : (dats m 0 c).after 9 t = lsblk m c t := by dsimp only [dats]

/-- Every input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The first point: the scratches are handed over at anything; the first support matrix is stored whole and
    the first slab of the hidden layer lands on rows [0, 400). -/
theorem sound_first (c : Dev nD) (t : Fin cfg0.N) (hA : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 50 := lt_of_lt_of_eq t.isLt N50
  have hB : t.val < 25 := by omega
  have hc0 : cond0_0 (grid0.coords t) := (hcond0_0 t).mpr hA
  have hc1 : ¬cond0_1 (grid0.coords t) := fun h => by have := (hcond0_1 t).mp h; omega
  have hc2 : cond0_2 (grid0.coords t) := (hcond0_2 t).mpr hB
  have hc3 : ¬cond0_3 (grid0.coords t) := fun h => by have := (hcond0_3 t).mp h; omega
  rw [Dat.leavesExact_idle (dats m 0 c) 8 t (idleAt0_8 t hB) (noFlush0_8 t hB),
    Dat.leavesExact_idle (dats m 0 c) 9 t (idleAt0_9 t hB) (noFlush0_9 t hB)]
  rw [PhiS_castSucc m c t, PhiS_zero m c _ _ hA, PhiA0_eq]
  have et : t = tFirst := Fin.ext (hA.trans tFirst_val.symm)
  have eS : k0_pay1 (iblk m c 1 t) (iblk m c 2 t) = sup1 m c := by rw [et]; rfl
  iintro ⟨⟨⟨⟨%S, HS0⟩, ⟨%T, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hrun := run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 hsc0 scM0_1 hsc1 hc0 hc1 hc2 hc3
    (iblk m c 0 t) (iblk m c 1 t) (iblk m c 2 t) (iblk m c 4 t) (iblk m c 5 t) S T Set.univ
  rw [eS] at hrun
  iapply (hrun _)
  isplitl [H0]; · iexact H0
  isplitl [H1]; · iexact H1
  isplitl [H2]; · iexact H2
  isplitl [H4]; · iexact H4
  isplitl [H5]; · iexact H5
  isplitl [HS0]; · iexact HS0
  isplitl [HS1]; · iexact HS1
  iintro ⟨H0, H1, H2, H4, H5, HS0, HS1⟩
  isplitl [HS0 HS1 Hg]
  · isplitl [HS0 HS1]
    · iexists (sup1 m c), (tAfter m c t (k0_off1_inb (grid0.coords t) hc2) T)
      isplitr
      · ipureintro
        exact ⟨fun _ => rfl, fun h => by omega, tAfter_inv m c t hB (k0_off1_inb (grid0.coords t) hc2) T (fun y hy => by omega)⟩
      isplitl [HS0]
      · unfold owns; iexists _; isplitr
        swap; · iexact HS0
        ipureintro; exact read_writes_whole scM0_0.view (hsc0.unread S) hz2 inb_S10000x256_S10000x256_0_0 (sup1 m c)
      · unfold owns tAfter; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 4000000 in
/-- A later point of the first pass: the support scratch is read, the next slab of the hidden layer lands on
    rows [400 t, 400 t + 400). -/
theorem sound_pass1 (c : Dev nD) (t : Fin cfg0.N) (hA : t.val ≠ 0) (hB : t.val < 25) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 50 := lt_of_lt_of_eq t.isLt N50
  have hc0 : ¬cond0_0 (grid0.coords t) := fun h => hA ((hcond0_0 t).mp h)
  have hc1 : ¬cond0_1 (grid0.coords t) := fun h => by have := (hcond0_1 t).mp h; omega
  have hc2 : cond0_2 (grid0.coords t) := (hcond0_2 t).mpr hB
  have hc3 : ¬cond0_3 (grid0.coords t) := fun h => by have := (hcond0_3 t).mp h; omega
  rw [Dat.leavesExact_idle (dats m 0 c) 8 t (idleAt0_8 t hB) (noFlush0_8 t hB),
    Dat.leavesExact_idle (dats m 0 c) 9 t (idleAt0_9 t hB) (noFlush0_9 t hB)]
  rw [PhiS_castSucc m c t, PhiS_pos m c _ _ hA]
  iintro ⟨⟨⟨%S, %T, %hInv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : S = sup1 m c := hInv.1 (by omega)
  have hrun := run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 hsc0 scM0_1 hsc1 hc0 hc1 hc2 hc3
    (iblk m c 0 t) (iblk m c 4 t) (iblk m c 5 t) (sup1 m c) T Set.univ
  iapply (hrun _)
  isplitl [H0]; · iexact H0
  isplitl [H4]; · iexact H4
  isplitl [H5]; · iexact H5
  isplitl [HS0]; · iexact HS0
  isplitl [HS1]; · iexact HS1
  iintro ⟨H0, H4, H5, HS0, HS1⟩
  isplitl [HS0 HS1 Hg]
  · isplitl [HS0 HS1]
    · iexists (sup1 m c), (tAfter m c t (k0_off1_inb (grid0.coords t) hc2) T)
      isplitr
      · ipureintro
        exact ⟨fun _ => rfl, fun h => by omega, tAfter_inv m c t hB (k0_off1_inb (grid0.coords t) hc2) T hInv.2.2⟩
      isplitl [HS0]; · iexact HS0
      unfold owns tAfter; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 4000000 in
/-- The first point of the second pass: every row of the hidden-layer scratch has been written, so it is the
    hidden layer; the second support matrix is stored whole, and a block of each output. -/
theorem sound_mid (c : Dev nD) (t : Fin cfg0.N) (hC : t.val = 25) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 50 := lt_of_lt_of_eq t.isLt N50
  have hA : t.val ≠ 0 := by omega
  have hD : 25 ≤ t.val := by omega
  have hc0 : ¬cond0_0 (grid0.coords t) := fun h => hA ((hcond0_0 t).mp h)
  have hc1 : cond0_1 (grid0.coords t) := (hcond0_1 t).mpr hC
  have hc2 : ¬cond0_2 (grid0.coords t) := fun h => by have := (hcond0_2 t).mp h; omega
  have hc3 : cond0_3 (grid0.coords t) := (hcond0_3 t).mpr hD
  rw [show (dats m 0 c).leavesExact 8 t = owns (c : Thread nD τ) (ms0_8 t) fullShare ((dats m 0 c).after 8 t) from by
    unfold Dat.leavesExact; rw [liveAt0_8 t hD], after0_8]
  rw [show (dats m 0 c).leavesExact 9 t = owns (c : Thread nD τ) (ms0_9 t) fullShare ((dats m 0 c).after 9 t) from by
    unfold Dat.leavesExact; rw [liveAt0_9 t hD], after0_9]
  rw [PhiS_castSucc m c t, PhiS_pos m c _ _ hA]
  have et : t = tMid := Fin.ext (hC.trans tMid_val.symm)
  have eS : k0_pay2 (hid m c) (iblk m c 3 t) = sup2 m c := by rw [et]; rfl
  iintro ⟨⟨⟨%S, %T, %hInv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : T = hid m c := funext fun y => hInv.2.2 y (by have := ValueIdx.idx2_lt0 y; omega)
  have hrun := run0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 hsc0 scM0_1 hsc1 hc0 hc1 hc2 hc3
    (iblk m c 0 t) (iblk m c 3 t) (iblk m c 6 t) (iblk m c 7 t)
    ((dats m 0 c).before 8 t d8) ((dats m 0 c).before 9 t d9) S (hid m c) Set.univ
  rw [eS] at hrun
  iapply (hrun _)
  isplitl [H0]; · iexact H0
  isplitl [H3]; · iexact H3
  isplitl [H6]; · iexact H6
  isplitl [H7]; · iexact H7
  isplitl [H8]; · iexact H8
  isplitl [H9]; · iexact H9
  isplitl [HS0]; · iexact HS0
  isplitl [HS1]; · iexact HS1
  iintro ⟨H0, H3, H6, H7, H8, H9, HS0, HS1⟩
  isplitl [HS0 HS1 Hg]
  · isplitl [HS0 HS1]
    · iexists (sup2 m c), (hid m c)
      isplitr
      · ipureintro
        exact ⟨fun h => by omega, fun _ => rfl, fun _ _ => rfl⟩
      isplitl [HS0]
      · unfold owns; iexists _; isplitr
        swap; · iexact HS0
        ipureintro; exact read_writes_whole scM0_0.view (hsc0.unread S) hz2 inb_S10000x256_S10000x256_0_0 (sup2 m c)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact read_writes_whole (ms0_8 t).view ((hs0_8 t).unread ((dats m 0 c).before 8 t d8)) hz2 inb_S400x128_S400x128_0_0 (mublk m c t)
  unfold owns; iexists _; isplitr
  swap; · iexact H9
  ipureintro; exact read_writes_whole (ms0_9 t).view ((hs0_9 t).unread ((dats m 0 c).before 9 t d9)) hz2 inb_S400x128_S400x128_0_0 (lsblk m c t)

set_option maxHeartbeats 4000000 in
/-- A later point of the second pass: the second support scratch is read and a block of each output stored. -/
theorem sound_pass2 (c : Dev nD) (t : Fin cfg0.N) (hC : 25 < t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 50 := lt_of_lt_of_eq t.isLt N50
  have hA : t.val ≠ 0 := by omega
  have hD : 25 ≤ t.val := by omega
  have hc0 : ¬cond0_0 (grid0.coords t) := fun h => hA ((hcond0_0 t).mp h)
  have hc1 : ¬cond0_1 (grid0.coords t) := fun h => by have := (hcond0_1 t).mp h; omega
  have hc2 : ¬cond0_2 (grid0.coords t) := fun h => by have := (hcond0_2 t).mp h; omega
  have hc3 : cond0_3 (grid0.coords t) := (hcond0_3 t).mpr hD
  rw [show (dats m 0 c).leavesExact 8 t = owns (c : Thread nD τ) (ms0_8 t) fullShare ((dats m 0 c).after 8 t) from by
    unfold Dat.leavesExact; rw [liveAt0_8 t hD], after0_8]
  rw [show (dats m 0 c).leavesExact 9 t = owns (c : Thread nD τ) (ms0_9 t) fullShare ((dats m 0 c).after 9 t) from by
    unfold Dat.leavesExact; rw [liveAt0_9 t hD], after0_9]
  rw [PhiS_castSucc m c t, PhiS_pos m c _ _ hA]
  iintro ⟨⟨⟨%S, %T, %hInv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : S = sup2 m c := hInv.2.1 hC
  have hrun := run0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 hsc0 scM0_1 hsc1 hc0 hc1 hc2 hc3
    (iblk m c 0 t) (iblk m c 6 t) (iblk m c 7 t)
    ((dats m 0 c).before 8 t d8) ((dats m 0 c).before 9 t d9) (sup2 m c) Set.univ
  iapply (hrun _)
  isplitl [H0]; · iexact H0
  isplitl [H6]; · iexact H6
  isplitl [H7]; · iexact H7
  isplitl [H8]; · iexact H8
  isplitl [H9]; · iexact H9
  isplitl [HS0]; · iexact HS0
  iintro ⟨H0, H6, H7, H8, H9, HS0⟩
  isplitl [HS0 HS1 Hg]
  · isplitl [HS0 HS1]
    · iexists (sup2 m c), T
      isplitr
      · ipureintro
        exact ⟨fun h => by omega, fun _ => rfl, fun y _ => hInv.2.2 y (by have := ValueIdx.idx2_lt0 y; omega)⟩
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact read_writes_whole (ms0_8 t).view ((hs0_8 t).unread ((dats m 0 c).before 8 t d8)) hz2 inb_S400x128_S400x128_0_0 (mublk m c t)
  unfold owns; iexists _; isplitr
  swap; · iexact H9
  ipureintro; exact read_writes_whole (ms0_9 t).view ((hs0_9 t).unread ((dats m 0 c).before 9 t d9)) hz2 inb_S400x128_S400x128_0_0 (lsblk m c t)

/-- The body at any point: the closed forms of the four conditions say which of the four cases the point is in. -/
theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_first m c t hA
  · by_cases hB : t.val < 25
    · exact sound_pass1 m c t hA hB
    · by_cases hC : t.val = 25
      · exact sound_mid m c t hC
      · exact sound_pass2 m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the two scratches back at whatever they hold. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N50; omega), PhiA0_eq]
  iintro ⟨⟨%S, %T, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and every final state has every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KernelIdeal.Shared.lean ====
/-
  The grid of the one pallas_call has 50 points, walked in order: points 0..24 are the first pass (the
  gated hidden layer, one 400-row slab of it per point), points 25..49 the second pass (the two output
  heads, one 400-row block of each per point, in reverse block order). The body has four conditionals;
  over the grid they select four cases:
    point 0        : compute the first support matrix, then a slab of the hidden layer;
    points 1..24   : a slab of the hidden layer;
    point 25       : compute the second support matrix from the whole hidden layer, then an output block;
    points 26..49  : an output block.
  This module decides those conditions in closed form and fixes the names of the staging and scratch
  buffers the case-by-case runs of the body are stated over.
-/
import proofs.«137288_g73933567034016_fold_wed_c4_870_19_alg».proof.Proof.Gen.KernelIdeal.Launch
import proofs.«137288_g73933567034016_fold_wed_c4_870_19_alg».proof.Proof.Gen.KernelIdeal.Skeleton
import proofs.«137288_g73933567034016_fold_wed_c4_870_19_alg».proof.Proof.Gen.KernelIdeal.Points
import proofs.«137288_g73933567034016_fold_wed_c4_870_19_alg».proof.Proof.Gen.KernelIdeal.Frame
import Idealize.ShloMosaic.Lib.Pipeline.FrameBody
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, decided over the grid -/

/-- First conditional: first pass and first block (the first support matrix is computed here). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- Second conditional: second pass and first block (the second support matrix is computed here). -/
abbrev cond0_1 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcond0_1 : ∀ t : Fin cfg0.N, cond0_1 (grid0.coords t) ↔ t.val = 25 :=
  (by decide +kernel : ∀ t : Fin grid0.N, cond0_1 (grid0.coords t) ↔ t.val = 25)

/-- Third conditional: the first pass (a slab of the hidden layer is stored). -/
abbrev cond0_2 (i : grid0.Coords) : Prop := k0_cond3 i = 1#1
theorem hcond0_2 : ∀ t : Fin cfg0.N, cond0_2 (grid0.coords t) ↔ t.val < 25 :=
  (by decide +kernel : ∀ t : Fin grid0.N, cond0_2 (grid0.coords t) ↔ t.val < 25)

/-- Fourth conditional: the second pass (a block of each output is stored). -/
abbrev cond0_3 (i : grid0.Coords) : Prop := k0_cond4 i = 1#1
theorem hcond0_3 : ∀ t : Fin cfg0.N, cond0_3 (grid0.coords t) ↔ 25 ≤ t.val :=
  (by decide +kernel : ∀ t : Fin grid0.N, cond0_3 (grid0.coords t) ↔ 25 ≤ t.val)

/-- The slab of the hidden layer stored at a point of the first pass starts at row 400 times the point. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- In the first pass the outputs are idle and nothing is written back. -/
theorem idleAt0_8 : ∀ t : Fin cfg0.N, t.val < 25 → cfg0.idle 8 (grid0.coords t) = true := by decide +kernel
theorem idleAt0_9 : ∀ t : Fin cfg0.N, t.val < 25 → cfg0.idle 9 (grid0.coords t) = true := by decide +kernel
theorem noFlush0_8 : ∀ t : Fin cfg0.N, t.val < 25 → (cfg0.win 8).flush t = false := by decide +kernel
theorem noFlush0_9 : ∀ t : Fin cfg0.N, t.val < 25 → (cfg0.win 9).flush t = false := by decide +kernel
/-- In the second pass the outputs are live, and every point writes its block back. -/
theorem liveAt0_8 : ∀ t : Fin cfg0.N, 25 ≤ t.val → cfg0.idle 8 (grid0.coords t) = false := by decide +kernel
theorem liveAt0_9 : ∀ t : Fin cfg0.N, 25 ≤ t.val → cfg0.idle 9 (grid0.coords t) = false := by decide +kernel
theorem flush0_8 : ∀ t : Fin cfg0.N, (cfg0.win 8).flush t = true ↔ 25 ≤ t.val := by decide +kernel
theorem flush0_9 : ∀ t : Fin cfg0.N, (cfg0.win 9).flush t = true ↔ 25 ≤ t.val := by decide +kernel

/-! ## The staging and scratch buffers the body is called on -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S400x128 .f32 := win0_9.stage (cfg0.slots t 9)
abbrev hs0_9 (t : Fin cfg0.N) : (ms0_9 t).IsWhole := hstage0_9 ((cfg0.slots t 9).cast nbuf0_9)
/-- The support-matrix scratch (10000 x 256) and the hidden-layer scratch (10000 x 128). -/
abbrev scM0_0 : Memref sig .tc .vmem S10000x256 .bf16 := Memref.whole cc0_scratch0
abbrev scM0_1 : Memref sig .tc .vmem S10000x128 .bf16 := Memref.whole cc0_scratch1

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The zero offsets of a whole-buffer rectangle, however spelt. -/
theorem hz2 : (![0, 0] : Fin 2 → ℕ) = fun _ => 0 := by funext a; fin_cases a <;> rfl

end Cert.KernelIdeal.Hand

end
-- ==== Proof.KernelIdeal.RunA.lean ====
/- The first point: the first support matrix is computed from the feature block and the first weight block and stored whole into its scratch; then, from the adjacency block, that matrix and the two bias rows, the first 400-row slab of the hidden layer is stored into the hidden-layer scratch, whose other rows keep what they held. -/
import proofs.«137288_g73933567034016_fold_wed_c4_870_19_alg».proof.Proof.KernelIdeal.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point: the first support matrix is computed from the feature block and the first weight block and stored whole into its scratch; then, from the adjacency block, that matrix and the two bias rows, the first 400-row slab of the hidden layer is stored into the hidden-layer scratch, whose other rows keep what they held.
    Stated as the body's triple on whole buffers at named contents; the list of stores each written buffer ends
    with is found by running the body. -/
noncomputable def kernelRun0_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : cond0_0 i) (hc1 : ¬cond0_1 i) (hc2 : cond0_2 i) (hc3 : ¬cond0_3 i)
    (x2 : Vec F S400x10000 .f32) (x3 : Vec F S10000x128 .f32) (x4 : Vec F S128x256 .bf16) (x6 : Vec F S1x128 .f32) (x7 : Vec F S1x128 .f32) (xs0 : Vec F S10000x256 .bf16) (xs1 : Vec F S10000x128 .bf16) :
    Σ' (LS0 : List (View.Piece (Elt F) S10000x256 .bf16)), { LS1 : List (View.Piece (Elt F) S10000x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg12 fullShare xs0 ∗ owns (c : Thread nD τ) arg13 fullShare xs1
            ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f6, %hf6, H6⟩, ⟨%f7, %hf7, H7⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg6.eq_unread hf6; obtain rfl := harg7.eq_unread hf7; obtain rfl := harg12.eq_unread hfs0; obtain rfl := harg13.eq_unread hfs1
    sl_exec (disch := first | exact hc0 | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [HS0]; · iexact HS0
    iexact HS1

/-- The one store case A leaves in buffer 12: its rectangle and its value as a function of the contents the body read. -/
theorem piece0_A_12 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : cond0_0 i) (hc1 : ¬cond0_1 i) (hc2 : cond0_2 i) (hc3 : ¬cond0_3 i)
    (x2 : Vec F S400x10000 .f32) (x3 : Vec F S10000x128 .f32) (x4 : Vec F S128x256 .bf16) (x6 : Vec F S1x128 .f32) (x7 : Vec F S1x128 .f32) (xs0 : Vec F S10000x256 .bf16) (xs1 : Vec F S10000x128 .bf16) :
    (kernelRun0_A c i arg2 harg2 arg3 harg3 arg4 harg4 arg5 harg5 arg6 harg6 arg7 harg7 arg8 harg8 arg9 harg9 arg10 harg10 arg11 harg11 arg12 harg12 arg13 harg13 hc0 hc1 hc2 hc3 x2 x3 x4 x6 x7 xs0 xs1).1
      = [⟨Rect.unit (s := S10000x256) ![0, 0] S10000x256.size inb_S10000x256_S10000x256_0_0, k0_pay1 x3 x4⟩] := by
  unfold kernelRun0_A; dsimp only
  try sl_unfold_words
  simp only [View.readAt_eq_ld, Memref.IsWhole.read_unread, View.ld_unit_zero (S := S400x10000) hz2, View.ld_unit_zero (S := S10000x128) hz2, View.ld_unit_zero (S := S128x256) hz2, View.ld_unit_zero (S := S1x128) hz2, View.ld_unit_zero (S := S10000x256) hz2, View.readCov_unit_zero (S := S10000x256) _ hz2]

/-- The one store case A leaves in buffer 13: its rectangle and its value as a function of the contents the body read. -/
theorem piece0_A_13 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : cond0_0 i) (hc1 : ¬cond0_1 i) (hc2 : cond0_2 i) (hc3 : ¬cond0_3 i)
    (x2 : Vec F S400x10000 .f32) (x3 : Vec F S10000x128 .f32) (x4 : Vec F S128x256 .bf16) (x6 : Vec F S1x128 .f32) (x7 : Vec F S1x128 .f32) (xs0 : Vec F S10000x256 .bf16) (xs1 : Vec F S10000x128 .bf16) :
    (kernelRun0_A c i arg2 harg2 arg3 harg3 arg4 harg4 arg5 harg5 arg6 harg6 arg7 harg7 arg8 harg8 arg9 harg9 arg10 harg10 arg11 harg11 arg12 harg12 arg13 harg13 hc0 hc1 hc2 hc3 x2 x3 x4 x6 x7 xs0 xs1).2.1
      = [⟨Rect.unit (s := S10000x128) (k0_off1 i) S400x128.size (k0_off1_inb i hc2), k0_pay4 x2 (k0_pay1 x3 x4) x6 x7⟩] := by
  unfold kernelRun0_A; dsimp only
  try sl_unfold_words
  simp only [View.readAt_eq_ld, Memref.IsWhole.read_unread, View.ld_unit_zero (S := S400x10000) hz2, View.ld_unit_zero (S := S10000x128) hz2, View.ld_unit_zero (S := S128x256) hz2, View.ld_unit_zero (S := S1x128) hz2, View.ld_unit_zero (S := S10000x256) hz2, View.readCov_unit_zero (S := S10000x256) _ hz2]

/-- Case A with each written buffer's one store written out. -/
theorem run0_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : cond0_0 i) (hc1 : ¬cond0_1 i) (hc2 : cond0_2 i) (hc3 : ¬cond0_3 i)
    (x2 : Vec F S400x10000 .f32) (x3 : Vec F S10000x128 .f32) (x4 : Vec F S128x256 .bf16) (x6 : Vec F S1x128 .f32) (x7 : Vec F S1x128 .f32) (xs0 : Vec F S10000x256 .bf16) (xs1 : Vec F S10000x128 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg12 fullShare xs0 ∗ owns (c : Thread nD τ) arg13 fullShare xs1
        ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ (arg12.view.loc (c : Thread nD τ) ↦[arg12.view.set]{fullShare} arg12.view.writes (Elt F) (harg12.unread xs0) [(⟨Rect.unit (s := S10000x256) ![0, 0] S10000x256.size inb_S10000x256_S10000x256_0_0, k0_pay1 x3 x4⟩ : View.Piece (Elt F) S10000x256 .bf16)]) ∗ (arg13.view.loc (c : Thread nD τ) ↦[arg13.view.set]{fullShare} arg13.view.writes (Elt F) (harg13.unread xs1) [(⟨Rect.unit (s := S10000x128) (k0_off1 i) S400x128.size (k0_off1_inb i hc2), k0_pay4 x2 (k0_pay1 x3 x4) x6 x7⟩ : View.Piece (Elt F) S10000x128 .bf16)])) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
  have h := (kernelRun0_A c i arg2 harg2 arg3 harg3 arg4 harg4 arg5 harg5 arg6 harg6 arg7 harg7 arg8 harg8 arg9 harg9 arg10 harg10 arg11 harg11 arg12 harg12 arg13 harg13 hc0 hc1 hc2 hc3 x2 x3 x4 x6 x7 xs0 xs1).2.2 E K
  rw [piece0_A_13, piece0_A_12] at h
  exact h

end Cert.KernelIdeal.Hand

end
-- ==== Proof.KernelIdeal.RunB.lean ====
/- A later point of the first pass: from the adjacency block, the first support matrix in its scratch and the two bias rows, one 400-row slab of the hidden layer is stored into the hidden-layer scratch; the other rows of that scratch keep what they held. -/
import proofs.«137288_g73933567034016_fold_wed_c4_870_19_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later point of the first pass: from the adjacency block, the first support matrix in its scratch and the two bias rows, one 400-row slab of the hidden layer is stored into the hidden-layer scratch; the other rows of that scratch keep what they held.
    Stated as the body's triple on whole buffers at named contents; the list of stores each written buffer ends
    with is found by running the body. -/
noncomputable def kernelRun0_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : cond0_2 i) (hc3 : ¬cond0_3 i)
    (x2 : Vec F S400x10000 .f32) (x6 : Vec F S1x128 .f32) (x7 : Vec F S1x128 .f32) (xs0 : Vec F S10000x256 .bf16) (xs1 : Vec F S10000x128 .bf16) :
    { LS1 : List (View.Piece (Elt F) S10000x128 .bf16) //
      ∀ (E : Set ℕ) (K : PUnit → sProp 𝕄),
        iprop(owns (c : Thread nD τ) arg2 fullShare x2 ∗ owns (c : Thread nD τ) arg6 fullShare x6 ∗ owns (c : Thread nD τ) arg7 fullShare x7 ∗ owns (c : Thread nD τ) arg12 fullShare xs0 ∗ owns (c : Thread nD τ) arg13 fullShare xs1
            ∗ (iprop(owns (c : Thread nD τ) arg2 fullShare x2 ∗ owns (c : Thread nD τ) arg6 fullShare x6 ∗ owns (c : Thread nD τ) arg7 fullShare x7 ∗ owns (c : Thread nD τ) arg12 fullShare xs0 ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f2, %hf2, H2⟩, ⟨%f6, %hf6, H6⟩, ⟨%f7, %hf7, H7⟩, ⟨%fs0, %hfs0, HS0⟩, ⟨%fs1, %hfs1, HS1⟩, Hk⟩
    obtain rfl := harg2.eq_unread hf2; obtain rfl := harg6.eq_unread hf6; obtain rfl := harg7.eq_unread hf7; obtain rfl := harg12.eq_unread hfs0; obtain rfl := harg13.eq_unread hfs1
    sl_exec (disch := first | exact hc0 | exact hc1 | exact hc2 | exact hc3)
    sl_step
    iapply Hk
    isplitl [H2]
    · iexists _; isplitr; · ipureintro; exact harg2.read_unread _
      iexact H2
    isplitl [H6]
    · iexists _; isplitr; · ipureintro; exact harg6.read_unread _
      iexact H6
    isplitl [H7]
    · iexists _; isplitr; · ipureintro; exact harg7.read_unread _
      iexact H7
    isplitl [HS0]
    · iexists _; isplitr; · ipureintro; exact harg12.read_unread _
      iexact HS0
    iexact HS1

/-- The one store case B leaves in buffer 13: its rectangle and its value as a function of the contents the body read. -/
theorem piece0_B_13 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : cond0_2 i) (hc3 : ¬cond0_3 i)
    (x2 : Vec F S400x10000 .f32) (x6 : Vec F S1x128 .f32) (x7 : Vec F S1x128 .f32) (xs0 : Vec F S10000x256 .bf16) (xs1 : Vec F S10000x128 .bf16) :
    (kernelRun0_B c i arg2 harg2 arg3 harg3 arg4 harg4 arg5 harg5 arg6 harg6 arg7 harg7 arg8 harg8 arg9 harg9 arg10 harg10 arg11 harg11 arg12 harg12 arg13 harg13 hc0 hc1 hc2 hc3 x2 x6 x7 xs0 xs1).1
      = [⟨Rect.unit (s := S10000x128) (k0_off1 i) S400x128.size (k0_off1_inb i hc2), k0_pay4 x2 xs0 x6 x7⟩] := by
  unfold kernelRun0_B; dsimp only
  try sl_unfold_words
  simp only [View.readAt_eq_ld, Memref.IsWhole.read_unread, View.ld_unit_zero (S := S400x10000) hz2, View.ld_unit_zero (S := S1x128) hz2, View.ld_unit_zero (S := S10000x256) hz2, View.ld_unit_zero (S := S10000x128) hz2, View.readCov_unit_zero (S := S10000x256) _ hz2]

/-- Case B with each written buffer's one store written out. -/
theorem run0_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : cond0_2 i) (hc3 : ¬cond0_3 i)
    (x2 : Vec F S400x10000 .f32) (x6 : Vec F S1x128 .f32) (x7 : Vec F S1x128 .f32) (xs0 : Vec F S10000x256 .bf16) (xs1 : Vec F S10000x128 .bf16)
    (E : Set ℕ) (K : PUnit → sProp 𝕄) :
    iprop(owns (c : Thread nD τ) arg2 fullShare x2 ∗ owns (c : Thread nD τ) arg6 fullShare x6 ∗ owns (c : Thread nD τ) arg7 fullShare x7 ∗ owns (c : Thread nD τ) arg12 fullShare xs0 ∗ owns (c : Thread nD τ) arg13 fullShare xs1
        ∗ (iprop(owns (c : Thread nD τ) arg2 fullShare x2 ∗ owns (c : Thread nD τ) arg6 fullShare x6 ∗ owns (c : Thread nD τ) arg7 fullShare x7 ∗ owns (c : Thread nD τ) arg12 fullShare xs0 ∗ (arg13.view.loc (c : Thread nD τ) ↦[arg13.view.set]{fullShare} arg13.view.writes (Elt F) (harg13.unread xs1) [(⟨Rect.unit (s := S10000x128) (k0_off1 i) S400x128.size (k0_off1_inb i hc2), k0_pay4 x2 xs0 x6 x7⟩ : View.Piece (Elt F) S10000x128 .bf16)])) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
  have h := (kernelRun0_B c i arg2 harg2 arg3 harg3 arg4 harg4 arg5 harg5 arg6 harg6 arg7 harg7 arg8 harg8 arg9 harg9 arg10 harg10 arg11 harg11 arg12 harg12 arg13 harg13 hc0 hc1 hc2 hc3 x2 x6 x7 xs0 xs1).2 E K
  rw [piece0_B_13] at h
  exact h

end Cert.KernelIdeal.Hand

end
-- ==== Proof.KernelIdeal.RunC.lean ====
/- The first point of the second pass: the second support matrix is computed from the whole hidden layer and the second weight block and stored whole into its scratch; then, from the adjacency block, that matrix and the two bias rows, a block of each output is stored. -/
import proofs.«137288_g73933567034016_fold_wed_c4_870_19_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point of the second pass: the second support matrix is computed from the whole hidden layer and the second weight block and stored whole into its scratch; then, from the adjacency block, that matrix and the two bias rows, a block of each output is stored.
    Stated as the body's triple on whole buffers at named contents; the list of stores each written buffer ends
    with is found by running the body. -/
noncomputable def kernelRun0_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16) :
    Σ' (LS0 : List (View.Piece (Elt F) S10000x256 .bf16)), Σ' (L10 : List (View.Piece (Elt F) S400x128 .f32)), { L11 : List (View.Piece (Elt F) S400x128 .f32) //
      ∀ (E : Set ℕ) (K : PUnit → sProp 𝕄),
        iprop(owns (c : Thread nD τ) arg2 fullShare x2 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xs0 ∗ owns (c : Thread nD τ) arg13 fullShare xs1
            ∗ (iprop(owns (c : Thread nD τ) arg2 fullShare x2 ∗ owns (c : Thread nD τ) arg5 fullShare x5 ∗ owns (c : Thread nD τ) arg8 fullShare x8 ∗ owns (c : Thread nD τ) arg9 fullShare x9 ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread xs0) LS0) ∗ owns (c : Thread nD τ) arg13 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__gcn_kernel_eq_skeleton]; unfold cc0__gcn_kernel_skel
    unfold owns
    iintro ⟨⟨%f2, %hf2, H2⟩, ⟨%f5, %hf5, H5⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf2; obtain rfl := harg5.eq_unread hf5; obtain rfl := harg8.eq_unread hf8; obtain rfl := harg9.eq_unread hf9; obtain rfl := harg10.eq_unread hf10; obtain rfl := harg11.eq_unread hf11; obtain rfl := harg12.eq_unread hfs0; obtain rfl := harg13.eq_unread hfs1
    sl_exec (disch := first | exact hc0 | exact hc1 | exact hc2 | exact hc3)
    sl_step
    iapply Hk
    isplitl [H2]
    · iexists _; isplitr; · ipureintro; exact harg2.read_unread _
      iexact H2
    isplitl [H5]
    · iexists _; isplitr; · ipureintro; exact harg5.read_unread _
      iexact H5
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    isplitl [HS0]; · iexact HS0
    iexists _; isplitr; · ipureintro; exact harg13.read_unread _
    iexact HS1

/-- The one store case C leaves in buffer 12: its rectangle and its value as a function of the contents the body read. -/
theorem piece0_C_12 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x2 x5 x8 x9 x10 x11 xs0 xs1).1
      = [⟨Rect.unit (s := S10000x256) ![0, 0] S10000x256.size inb_S10000x256_S10000x256_0_0, k0_pay2 xs1 x5⟩] := by
  unfold kernelRun0_C; dsimp only
  try sl_unfold_words
  simp only [View.readAt_eq_ld, Memref.IsWhole.read_unread, View.ld_unit_zero (S := S400x10000) hz2, View.ld_unit_zero (S := S128x256) hz2, View.ld_unit_zero (S := S1x128) hz2, View.ld_unit_zero (S := S400x128) hz2, View.ld_unit_zero (S := S10000x256) hz2, View.ld_unit_zero (S := S10000x128) hz2, View.readCov_unit_zero (S := S10000x256) _ hz2]

/-- The one store case C leaves in buffer 10: its rectangle and its value as a function of the contents the body read. -/
theorem piece0_C_10 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x2 x5 x8 x9 x10 x11 xs0 xs1).2.1
      = [⟨Rect.unit (s := S400x128) ![0, 0] S400x128.size inb_S400x128_S400x128_0_0, k0_pay5 x2 (k0_pay2 xs1 x5) x8⟩] := by
  unfold kernelRun0_C; dsimp only
  try sl_unfold_words
  simp only [View.readAt_eq_ld, Memref.IsWhole.read_unread, View.ld_unit_zero (S := S400x10000) hz2, View.ld_unit_zero (S := S128x256) hz2, View.ld_unit_zero (S := S1x128) hz2, View.ld_unit_zero (S := S400x128) hz2, View.ld_unit_zero (S := S10000x256) hz2, View.ld_unit_zero (S := S10000x128) hz2, View.readCov_unit_zero (S := S10000x256) _ hz2]

/-- The one store case C leaves in buffer 11: its rectangle and its value as a function of the contents the body read. -/
theorem piece0_C_11 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x2 x5 x8 x9 x10 x11 xs0 xs1).2.2.1
      = [⟨Rect.unit (s := S400x128) ![0, 0] S400x128.size inb_S400x128_S400x128_0_0, k0_pay6 x2 (k0_pay2 xs1 x5) x9⟩] := by
  unfold kernelRun0_C; dsimp only
  try sl_unfold_words
  simp only [View.readAt_eq_ld, Memref.IsWhole.read_unread, View.ld_unit_zero (S := S400x10000) hz2, View.ld_unit_zero (S := S128x256) hz2, View.ld_unit_zero (S := S1x128) hz2, View.ld_unit_zero (S := S400x128) hz2, View.ld_unit_zero (S := S10000x256) hz2, View.ld_unit_zero (S := S10000x128) hz2, View.readCov_unit_zero (S := S10000x256) _ hz2]

/-- Case C with each written buffer's one store written out. -/
theorem run0_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : cond0_1 i) (hc2 : ¬cond0_2 i) (hc3 : cond0_3 i)
    (x2 : Vec F S400x10000 .f32) (x5 : Vec F S128x256 .bf16) (x8 : Vec F S1x128 .f32) (x9 : Vec F S1x128 .f32) (x10 : Vec F S400x128 .f32) (x11 : Vec F S400x128 .f32) (xs0 : Vec F S10000x256 .bf16) (xs1 : Vec F S10000x128 .bf16)
    (E : Set ℕ) (K : PUnit → sProp 𝕄) :
    iprop(owns (c : Thread nD τ) arg2 fullShare x2 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xs0 ∗ owns (c : Thread nD τ) arg13 fullShare xs1
        ∗ (iprop(owns (c : Thread nD τ) arg2 fullShare x2 ∗ owns (c : Thread nD τ) arg5 fullShare x5 ∗ owns (c : Thread nD τ) arg8 fullShare x8 ∗ owns (c : Thread nD τ) arg9 fullShare x9 ∗ (arg10.view.loc (c : Thread nD τ) ↦[arg10.view.set]{fullShare} arg10.view.writes (Elt F) (harg10.unread x10) [(⟨Rect.unit (s := S400x128) ![0, 0] S400x128.size inb_S400x128_S400x128_0_0, k0_pay5 x2 (k0_pay2 xs1 x5) x8⟩ : View.Piece (Elt F) S400x128 .f32)]) ∗ (arg11.view.loc (c : Thread nD τ) ↦[arg11.view.set]{fullShare} arg11.view.writes (Elt F) (harg11.unread x11) [(⟨Rect.unit (s := S400x128) ![0, 0] S400x128.size inb_S400x128_S400x128_0_0, k0_pay6 x2 (k0_pay2 xs1 x5) x9⟩ : View.Piece (Elt F) S400x128 .f32)]) ∗ (arg12.view.loc (c : Thread nD τ) ↦[arg12.view.set]{fullShare} arg12.view.writes (Elt F) (harg12.unread xs0) [(⟨Rect.unit (s := S10000x256) ![0, 0] S10000x256.size inb_S10000x256_S10000x256_0_0, k0_pay2 xs1 x5⟩ : View.Piece (Elt F) S10000x256 .bf16)]) ∗ owns (c : Thread nD τ) arg13 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
  have h := (kernelRun0_C c i arg2 harg2 arg3 harg3 arg4 harg4 arg5 harg5 arg6 harg6 arg7 harg7 arg8 harg8 arg9 harg9 arg10 harg10 arg11 harg11 arg12 harg12 arg13 harg13 hc0 hc1 hc2 hc3 x2 x5 x8 x9 x10 x11 xs0 xs1).2.2.2 E K
  rw [piece0_C_11, piece0_C_10, piece0_C_12] at h
  exact h

end Cert.KernelIdeal.Hand

end
-- ==== Proof.KernelIdeal.RunD.lean ====
/- A later point of the second pass: from the adjacency block, the second support matrix in its scratch and the two bias rows, a block of each output is stored. -/
import proofs.«137288_g73933567034016_fold_wed_c4_870_19_alg».proof.Proof.KernelIdeal.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later point of the second pass: from the adjacency block, the second support matrix in its scratch and the two bias rows, a block of each output is stored.
    Stated as the body's triple on whole buffers at named contents; the list of stores each written buffer ends
    with is found by running the body. -/
noncomputable def kernelRun0_D (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : ¬cond0_2 i) (hc3 : cond0_3 i)
    (x2 : Vec F S400x10000 .f32) (x8 : Vec F S1x128 .f32) (x9 : Vec F S1x128 .f32) (x10 : Vec F S400x128 .f32) (x11 : Vec F S400x128 .f32) (xs0 : Vec F S10000x256 .bf16) :
    Σ' (L10 : List (View.Piece (Elt F) S400x128 .f32)), { L11 : List (View.Piece (Elt F) S400x128 .f32) //
      ∀ (E : Set ℕ) (K : PUnit → sProp 𝕄),
        iprop(owns (c : Thread nD τ) arg2 fullShare x2 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xs0
            ∗ (iprop(owns (c : Thread nD τ) arg2 fullShare x2 ∗ owns (c : Thread nD τ) arg8 fullShare x8 ∗ owns (c : Thread nD τ) arg9 fullShare x9 ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ owns (c : Thread nD τ) arg12 fullShare xs0) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f2, %hf2, H2⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf2; obtain rfl := harg8.eq_unread hf8; obtain rfl := harg9.eq_unread hf9; obtain rfl := harg10.eq_unread hf10; obtain rfl := harg11.eq_unread hf11; obtain rfl := harg12.eq_unread hfs0
    sl_exec (disch := first | exact hc0 | exact hc1 | exact hc2 | exact hc3)
    sl_step
    iapply Hk
    isplitl [H2]
    · iexists _; isplitr; · ipureintro; exact harg2.read_unread _
      iexact H2
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    iexists _; isplitr; · ipureintro; exact harg12.read_unread _
    iexact HS0

/-- The one store case D leaves in buffer 10: its rectangle and its value as a function of the contents the body read. -/
theorem piece0_D_10 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : ¬cond0_2 i) (hc3 : cond0_3 i)
    (x2 : Vec F S400x10000 .f32) (x8 : Vec F S1x128 .f32) (x9 : Vec F S1x128 .f32) (x10 : Vec F S400x128 .f32) (x11 : Vec F S400x128 .f32) (xs0 : Vec F S10000x256 .bf16) :
    (kernelRun0_D c i arg2 harg2 arg3 harg3 arg4 harg4 arg5 harg5 arg6 harg6 arg7 harg7 arg8 harg8 arg9 harg9 arg10 harg10 arg11 harg11 arg12 harg12 arg13 harg13 hc0 hc1 hc2 hc3 x2 x8 x9 x10 x11 xs0).1
      = [⟨Rect.unit (s := S400x128) ![0, 0] S400x128.size inb_S400x128_S400x128_0_0, k0_pay5 x2 xs0 x8⟩] := by
  unfold kernelRun0_D; dsimp only
  try sl_unfold_words
  simp only [View.readAt_eq_ld, Memref.IsWhole.read_unread, View.ld_unit_zero (S := S400x10000) hz2, View.ld_unit_zero (S := S1x128) hz2, View.ld_unit_zero (S := S400x128) hz2, View.ld_unit_zero (S := S10000x256) hz2, View.readCov_unit_zero (S := S10000x256) _ hz2]

/-- The one store case D leaves in buffer 11: its rectangle and its value as a function of the contents the body read. -/
theorem piece0_D_11 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : ¬cond0_2 i) (hc3 : cond0_3 i)
    (x2 : Vec F S400x10000 .f32) (x8 : Vec F S1x128 .f32) (x9 : Vec F S1x128 .f32) (x10 : Vec F S400x128 .f32) (x11 : Vec F S400x128 .f32) (xs0 : Vec F S10000x256 .bf16) :
    (kernelRun0_D c i arg2 harg2 arg3 harg3 arg4 harg4 arg5 harg5 arg6 harg6 arg7 harg7 arg8 harg8 arg9 harg9 arg10 harg10 arg11 harg11 arg12 harg12 arg13 harg13 hc0 hc1 hc2 hc3 x2 x8 x9 x10 x11 xs0).2.1
      = [⟨Rect.unit (s := S400x128) ![0, 0] S400x128.size inb_S400x128_S400x128_0_0, k0_pay6 x2 xs0 x9⟩] := by
  unfold kernelRun0_D; dsimp only
  try sl_unfold_words
  simp only [View.readAt_eq_ld, Memref.IsWhole.read_unread, View.ld_unit_zero (S := S400x10000) hz2, View.ld_unit_zero (S := S1x128) hz2, View.ld_unit_zero (S := S400x128) hz2, View.ld_unit_zero (S := S10000x256) hz2, View.readCov_unit_zero (S := S10000x256) _ hz2]

/-- Case D with each written buffer's one store written out. -/
theorem run0_D (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S10000x256 .bf16) (harg12 : arg12.IsWhole) (arg13 : Memref sig .tc .vmem S10000x128 .bf16) (harg13 : arg13.IsWhole)
    (hc0 : ¬cond0_0 i) (hc1 : ¬cond0_1 i) (hc2 : ¬cond0_2 i) (hc3 : cond0_3 i)
    (x2 : Vec F S400x10000 .f32) (x8 : Vec F S1x128 .f32) (x9 : Vec F S1x128 .f32) (x10 : Vec F S400x128 .f32) (x11 : Vec F S400x128 .f32) (xs0 : Vec F S10000x256 .bf16)
    (E : Set ℕ) (K : PUnit → sProp 𝕄) :
    iprop(owns (c : Thread nD τ) arg2 fullShare x2 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare xs0
        ∗ (iprop(owns (c : Thread nD τ) arg2 fullShare x2 ∗ owns (c : Thread nD τ) arg8 fullShare x8 ∗ owns (c : Thread nD τ) arg9 fullShare x9 ∗ (arg10.view.loc (c : Thread nD τ) ↦[arg10.view.set]{fullShare} arg10.view.writes (Elt F) (harg10.unread x10) [(⟨Rect.unit (s := S400x128) ![0, 0] S400x128.size inb_S400x128_S400x128_0_0, k0_pay5 x2 xs0 x8⟩ : View.Piece (Elt F) S400x128 .f32)]) ∗ (arg11.view.loc (c : Thread nD τ) ↦[arg11.view.set]{fullShare} arg11.view.writes (Elt F) (harg11.unread x11) [(⟨Rect.unit (s := S400x128) ![0, 0] S400x128.size inb_S400x128_S400x128_0_0, k0_pay6 x2 xs0 x9⟩ : View.Piece (Elt F) S400x128 .f32)]) ∗ owns (c : Thread nD τ) arg12 fullShare xs0) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
  have h := (kernelRun0_D c i arg2 harg2 arg3 harg3 arg4 harg4 arg5 harg5 arg6 harg6 arg7 harg7 arg8 harg8 arg9 harg9 arg10 harg10 arg11 harg11 arg12 harg12 arg13 harg13 hc0 hc1 hc2 hc3 x2 x8 x9 x10 x11 xs0).2.2 E K
  rw [piece0_D_11, piece0_D_10] at h
  exact h

end Cert.KernelIdeal.Hand

end
-- ==== Proof.KernelIdeal.Body.lean ====
/-
  The body of the kernel at every point of the grid, and the run of the whole program.

  What the two scratch buffers hold is a function of the argument blocks alone:
    sup1        the first support matrix, the feature block times the first (two-headed) weight block;
    hslab t     slab t of the hidden layer (400 rows): tanh of one half of (adjacency block t times sup1, plus a
                bias row) times the logistic function of the other half;
    hid         the whole hidden layer: row r is row r mod 400 of slab r div 400;
    sup2        the second support matrix, the hidden layer times the second weight block;
    mublk t, lsblk t   the block of each output stored at a point t of the second pass: one half of (adjacency
                block t times sup2) plus a bias row.
  The invariant carried from point to point says: after n >= 1 points the support scratch holds sup1 while
  n <= 25 and sup2 afterwards, and the hidden-layer scratch agrees with hid on its first 400 n rows (all of its
  rows from n = 25 on). Rows not yet written hold whatever the buffer held at entry; nothing reads them before
  point 25, where every row has been written. At a point of the first pass the stored slab lands on rows
  [400 t, 400 t + 400), which are exactly the rows whose quotient by 400 is t.
-/
import proofs.«137288_g73933567034016_fold_wed_c4_870_19_alg».proof.Proof.KernelIdeal.RunD
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The first point of the grid, and the first point of the second pass. -/
def tFirst : Fin cfg0.N := ⟨0, lt_of_lt_of_eq (by omega : 0 < 50) N50.symm⟩
def tMid : Fin cfg0.N := ⟨25, lt_of_lt_of_eq (by omega : 25 < 50) N50.symm⟩
theorem tFirst_val : (tFirst).val = 0 := rfl
theorem tMid_val : (tMid).val = 25 := rfl
attribute [irreducible] tFirst tMid

/-! ## What the scratch buffers and the output blocks hold -/

/-- The first support matrix: the feature block times the first weight block. -/
def sup1 (c : Dev nD) : FVec F S10000x256 .bf16 := k0_pay1 (iblk m c 1 tFirst) (iblk m c 2 tFirst)

/-- Slab `t` of the hidden layer. -/
def hslab (c : Dev nD) (t : Fin cfg0.N) : FVec F S400x128 .bf16 :=
  k0_pay4 (iblk m c 0 t) (sup1 m c) (iblk m c 4 t) (iblk m c 5 t)

/-- The hidden layer: row `r` is row `r % 400` of slab `r / 400`. -/
def hid (c : Dev nD) : FVec F S10000x128 .bf16 := fun y =>
  hslab m c ⟨(y 0).val / 400, lt_of_lt_of_eq (by have := ValueIdx.idx2_lt0 y; omega : (y 0).val / 400 < 50) N50.symm⟩
    (ValueIdx.ix2 (⟨(y 0).val % 400, Nat.mod_lt _ (by omega)⟩ : Fin 400) (⟨(y 1).val, ValueIdx.idx2_lt1 y⟩ : Fin 128))

/-- The second support matrix: the hidden layer times the second weight block. -/
def sup2 (c : Dev nD) : FVec F S10000x256 .bf16 := k0_pay2 (hid m c) (iblk m c 3 tMid)

/-- The block of the first output stored at point `t`, and of the second. -/
def mublk (c : Dev nD) (t : Fin cfg0.N) : FVec F S400x128 .f32 := k0_pay5 (iblk m c 0 t) (sup2 m c) (iblk m c 6 t)
def lsblk (c : Dev nD) (t : Fin cfg0.N) : FVec F S400x128 .f32 := k0_pay6 (iblk m c 0 t) (sup2 m c) (iblk m c 7 t)

/-! ## Reading a buffer back after one store -/

/-- One store through the whole-buffer rectangle leaves its value, whatever the buffer held. -/
theorem read_writes_whole {S : Shape} {e : EltTy} {κ : Kind} {sp : Space} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

/-- Storing slab `t` on rows [400 t, 400 t + 400) of a buffer that agrees with the hidden layer on its first
    400 t rows leaves one that agrees with it on its first 400 (t + 1) rows: a row below 400 t is not touched,
    and a row r of the slab has r / 400 = t and sits at row r % 400 = r - 400 t of the slab. -/
theorem slab_step (c : Dev nD) (t : Fin cfg0.N) (ht : t.val < 25) (T : Vec F S10000x128 .bf16)
    (f : scM0_1.view.ty.Contents (Elt F)) (hf : scM0_1.view.read (Elt F) f = T)
    (hT : ∀ y : S10000x128.Idx, (y 0).val < 400 * t.val → T y = hid m c y)
    (inb : ∀ a, (k0_off1 (grid0.coords t)) a + S400x128.size a ≤ S10000x128.size a) :
    ∀ y : S10000x128.Idx, (y 0).val < 400 * (t.val + 1) →
      scM0_1.view.read (Elt F) (scM0_1.view.writes (Elt F) f
        [(⟨Rect.unit (s := S10000x128) (k0_off1 (grid0.coords t)) S400x128.size inb, hslab m c t⟩ : View.Piece (Elt F) S10000x128 .bf16)]) y
        = hid m c y := by
  intro y hy
  by_cases h : (y 0).val < 400 * t.val
  · rw [View.read_writes_cons_rows_of_not_mem scM0_1.view f inb (hslab m c t) [] y (off1_eq t ht) rfl (Or.inl h)]
    simp only [View.writes_nil]
    rw [hf]; exact hT y h
  · have hq : (y 0).val / 400 = t.val := by omega
    have hr : (y 0).val % 400 = (y 0).val - 400 * t.val := by omega
    rw [View.read_writes_cons_rows_of_mem scM0_1.view f inb (hslab m c t) [] y
      (ValueIdx.ix2 (⟨(y 0).val - 400 * t.val, by omega⟩ : Fin 400) (⟨(y 1).val, ValueIdx.idx2_lt1 y⟩ : Fin 128))
      (off1_eq t ht) (by show (y 0).val = 400 * t.val + ((y 0).val - 400 * t.val); omega) rfl]
    unfold hid
    simp only [hq, hr, Fin.eta]

/-- The scratch buffers are whole buffers. -/
abbrev hsc0 : scM0_0.IsWhole := Memref.isWhole_whole _
abbrev hsc1 : scM0_1.IsWhole := Memref.isWhole_whole _

/-- The hidden-layer buffer after slab `t` has been stored over contents `T`. -/
def tAfter (c : Dev nD) (t : Fin cfg0.N) (inb : ∀ a, (k0_off1 (grid0.coords t)) a + S400x128.size a ≤ S10000x128.size a)
    (T : Vec F S10000x128 .bf16) : Vec F S10000x128 .bf16 :=
  scM0_1.view.read (Elt F) (scM0_1.view.writes (Elt F) (hsc1.unread T)
    [(⟨Rect.unit (s := S10000x128) (k0_off1 (grid0.coords t)) S400x128.size inb,
        k0_pay4 (iblk m c 0 t) (sup1 m c) (iblk m c 4 t) (iblk m c 5 t)⟩ : View.Piece (Elt F) S10000x128 .bf16)])

/-- It agrees with the hidden layer on its first 400 (t + 1) rows if `T` did on its first 400 t. -/
theorem tAfter_inv (c : Dev nD) (t : Fin cfg0.N) (ht : t.val < 25)
    (inb : ∀ a, (k0_off1 (grid0.coords t)) a + S400x128.size a ≤ S10000x128.size a) (T : Vec F S10000x128 .bf16)
    (hT : ∀ y : S10000x128.Idx, (y 0).val < 400 * t.val → T y = hid m c y) :
    ∀ y : S10000x128.Idx, (y 0).val < 400 * (t.val + 1) → tAfter m c t inb T y = hid m c y :=
  slab_step m c t ht T (hsc1.unread T) (hsc1.read_unread T) hT inb

/-! ## The invariant carried from point to point -/

/-- After `n ≥ 1` points: the support scratch at the first support matrix through the first pass and at the
    second afterwards; the hidden-layer scratch equal to the hidden layer on its first `400 n` rows. -/
def Inv (c : Dev nD) (n : ℕ) (S : Vec F S10000x256 .bf16) (T : Vec F S10000x128 .bf16) : Prop :=
  (n ≤ 25 → S = sup1 m c) ∧ (25 < n → S = sup2 m c) ∧ ∀ y : S10000x128.Idx, (y 0).val < 400 * n → T y = hid m c y

/-- Before the first point the two scratches hold anything; afterwards they satisfy the invariant. -/
def PhiS (c : Dev nD) : (n : ℕ) → n ≤ cfg0.N → sProp 𝕄
  | 0, _ => Pipeline.ΦA spec0 c
  | n + 1, _ => iprop(iprop(∃ S, ∃ T, ⌜Inv m c (n + 1) S T⌝ ∗ owns (c : Thread nD τ) scM0_0 fullShare S ∗ owns (c : Thread nD τ) scM0_1 fullShare T) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ S, ∃ T, ⌜Inv m c (n + 1) S T⌝ ∗ owns (c : Thread nD τ) scM0_0 fullShare S ∗ owns (c : Thread nD τ) scM0_1 fullShare T) ∗ (∃ r, prngReg c r)) := rfl

theorem PhiS_pos (c : Dev nD) (n : ℕ) (h : n ≤ cfg0.N) (hz : n ≠ 0) :
    PhiS m c n h = iprop(iprop(∃ S, ∃ T, ⌜Inv m c n S T⌝ ∗ owns (c : Thread nD τ) scM0_0 fullShare S ∗ owns (c : Thread nD τ) scM0_1 fullShare T) ∗ (∃ r, prngReg c r)) := by
  cases n with
  | zero => exact absurd rfl hz
  | succ n => rfl

/-! ## The proof data of the one pipeline -/

/-- The arrays as the region finds them; after the body at point `t` every input's buffer at its block, the two
    outputs' at the blocks stored there; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => mublk m c t
    | ⟨9, _⟩ => lsblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = mublk m c t := by dsimp only [dats]
theorem after0_9 (c : Dev nD) (t : Fin cfg0.N) : (dats m 0 c).after 9 t = lsblk m c t := by dsimp only [dats]

/-- Every input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The first point: the scratches are handed over at anything; the first support matrix is stored whole and
    the first slab of the hidden layer lands on rows [0, 400). -/
theorem sound_first (c : Dev nD) (t : Fin cfg0.N) (hA : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 50 := lt_of_lt_of_eq t.isLt N50
  have hB : t.val < 25 := by omega
  have hc0 : cond0_0 (grid0.coords t) := (hcond0_0 t).mpr hA
  have hc1 : ¬cond0_1 (grid0.coords t) := fun h => by have := (hcond0_1 t).mp h; omega
  have hc2 : cond0_2 (grid0.coords t) := (hcond0_2 t).mpr hB
  have hc3 : ¬cond0_3 (grid0.coords t) := fun h => by have := (hcond0_3 t).mp h; omega
  rw [Dat.leavesExact_idle (dats m 0 c) 8 t (idleAt0_8 t hB) (noFlush0_8 t hB),
    Dat.leavesExact_idle (dats m 0 c) 9 t (idleAt0_9 t hB) (noFlush0_9 t hB)]
  rw [PhiS_castSucc m c t, PhiS_zero m c _ _ hA, PhiA0_eq]
  have et : t = tFirst := Fin.ext (hA.trans tFirst_val.symm)
  have eS : k0_pay1 (iblk m c 1 t) (iblk m c 2 t) = sup1 m c := by rw [et]; rfl
  iintro ⟨⟨⟨⟨%S, HS0⟩, ⟨%T, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hrun := run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 hsc0 scM0_1 hsc1 hc0 hc1 hc2 hc3
    (iblk m c 0 t) (iblk m c 1 t) (iblk m c 2 t) (iblk m c 4 t) (iblk m c 5 t) S T Set.univ
  rw [eS] at hrun
  iapply (hrun _)
  isplitl [H0]; · iexact H0
  isplitl [H1]; · iexact H1
  isplitl [H2]; · iexact H2
  isplitl [H4]; · iexact H4
  isplitl [H5]; · iexact H5
  isplitl [HS0]; · iexact HS0
  isplitl [HS1]; · iexact HS1
  iintro ⟨H0, H1, H2, H4, H5, HS0, HS1⟩
  isplitl [HS0 HS1 Hg]
  · isplitl [HS0 HS1]
    · iexists (sup1 m c), (tAfter m c t (k0_off1_inb (grid0.coords t) hc2) T)
      isplitr
      · ipureintro
        exact ⟨fun _ => rfl, fun h => by omega, tAfter_inv m c t hB (k0_off1_inb (grid0.coords t) hc2) T (fun y hy => by omega)⟩
      isplitl [HS0]
      · unfold owns; iexists _; isplitr
        swap; · iexact HS0
        ipureintro; exact read_writes_whole scM0_0.view (hsc0.unread S) hz2 inb_S10000x256_S10000x256_0_0 (sup1 m c)
      · unfold owns tAfter; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 4000000 in
/-- A later point of the first pass: the support scratch is read, the next slab of the hidden layer lands on
    rows [400 t, 400 t + 400). -/
theorem sound_pass1 (c : Dev nD) (t : Fin cfg0.N) (hA : t.val ≠ 0) (hB : t.val < 25) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 50 := lt_of_lt_of_eq t.isLt N50
  have hc0 : ¬cond0_0 (grid0.coords t) := fun h => hA ((hcond0_0 t).mp h)
  have hc1 : ¬cond0_1 (grid0.coords t) := fun h => by have := (hcond0_1 t).mp h; omega
  have hc2 : cond0_2 (grid0.coords t) := (hcond0_2 t).mpr hB
  have hc3 : ¬cond0_3 (grid0.coords t) := fun h => by have := (hcond0_3 t).mp h; omega
  rw [Dat.leavesExact_idle (dats m 0 c) 8 t (idleAt0_8 t hB) (noFlush0_8 t hB),
    Dat.leavesExact_idle (dats m 0 c) 9 t (idleAt0_9 t hB) (noFlush0_9 t hB)]
  rw [PhiS_castSucc m c t, PhiS_pos m c _ _ hA]
  iintro ⟨⟨⟨%S, %T, %hInv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : S = sup1 m c := hInv.1 (by omega)
  have hrun := run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 hsc0 scM0_1 hsc1 hc0 hc1 hc2 hc3
    (iblk m c 0 t) (iblk m c 4 t) (iblk m c 5 t) (sup1 m c) T Set.univ
  iapply (hrun _)
  isplitl [H0]; · iexact H0
  isplitl [H4]; · iexact H4
  isplitl [H5]; · iexact H5
  isplitl [HS0]; · iexact HS0
  isplitl [HS1]; · iexact HS1
  iintro ⟨H0, H4, H5, HS0, HS1⟩
  isplitl [HS0 HS1 Hg]
  · isplitl [HS0 HS1]
    · iexists (sup1 m c), (tAfter m c t (k0_off1_inb (grid0.coords t) hc2) T)
      isplitr
      · ipureintro
        exact ⟨fun _ => rfl, fun h => by omega, tAfter_inv m c t hB (k0_off1_inb (grid0.coords t) hc2) T hInv.2.2⟩
      isplitl [HS0]; · iexact HS0
      unfold owns tAfter; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 4000000 in
/-- The first point of the second pass: every row of the hidden-layer scratch has been written, so it is the
    hidden layer; the second support matrix is stored whole, and a block of each output. -/
theorem sound_mid (c : Dev nD) (t : Fin cfg0.N) (hC : t.val = 25) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 50 := lt_of_lt_of_eq t.isLt N50
  have hA : t.val ≠ 0 := by omega
  have hD : 25 ≤ t.val := by omega
  have hc0 : ¬cond0_0 (grid0.coords t) := fun h => hA ((hcond0_0 t).mp h)
  have hc1 : cond0_1 (grid0.coords t) := (hcond0_1 t).mpr hC
  have hc2 : ¬cond0_2 (grid0.coords t) := fun h => by have := (hcond0_2 t).mp h; omega
  have hc3 : cond0_3 (grid0.coords t) := (hcond0_3 t).mpr hD
  rw [show (dats m 0 c).leavesExact 8 t = owns (c : Thread nD τ) (ms0_8 t) fullShare ((dats m 0 c).after 8 t) from by
    unfold Dat.leavesExact; rw [liveAt0_8 t hD], after0_8]
  rw [show (dats m 0 c).leavesExact 9 t = owns (c : Thread nD τ) (ms0_9 t) fullShare ((dats m 0 c).after 9 t) from by
    unfold Dat.leavesExact; rw [liveAt0_9 t hD], after0_9]
  rw [PhiS_castSucc m c t, PhiS_pos m c _ _ hA]
  have et : t = tMid := Fin.ext (hC.trans tMid_val.symm)
  have eS : k0_pay2 (hid m c) (iblk m c 3 t) = sup2 m c := by rw [et]; rfl
  iintro ⟨⟨⟨%S, %T, %hInv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : T = hid m c := funext fun y => hInv.2.2 y (by have := ValueIdx.idx2_lt0 y; omega)
  have hrun := run0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 hsc0 scM0_1 hsc1 hc0 hc1 hc2 hc3
    (iblk m c 0 t) (iblk m c 3 t) (iblk m c 6 t) (iblk m c 7 t)
    ((dats m 0 c).before 8 t d8) ((dats m 0 c).before 9 t d9) S (hid m c) Set.univ
  rw [eS] at hrun
  iapply (hrun _)
  isplitl [H0]; · iexact H0
  isplitl [H3]; · iexact H3
  isplitl [H6]; · iexact H6
  isplitl [H7]; · iexact H7
  isplitl [H8]; · iexact H8
  isplitl [H9]; · iexact H9
  isplitl [HS0]; · iexact HS0
  isplitl [HS1]; · iexact HS1
  iintro ⟨H0, H3, H6, H7, H8, H9, HS0, HS1⟩
  isplitl [HS0 HS1 Hg]
  · isplitl [HS0 HS1]
    · iexists (sup2 m c), (hid m c)
      isplitr
      · ipureintro
        exact ⟨fun h => by omega, fun _ => rfl, fun _ _ => rfl⟩
      isplitl [HS0]
      · unfold owns; iexists _; isplitr
        swap; · iexact HS0
        ipureintro; exact read_writes_whole scM0_0.view (hsc0.unread S) hz2 inb_S10000x256_S10000x256_0_0 (sup2 m c)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact read_writes_whole (ms0_8 t).view ((hs0_8 t).unread ((dats m 0 c).before 8 t d8)) hz2 inb_S400x128_S400x128_0_0 (mublk m c t)
  unfold owns; iexists _; isplitr
  swap; · iexact H9
  ipureintro; exact read_writes_whole (ms0_9 t).view ((hs0_9 t).unread ((dats m 0 c).before 9 t d9)) hz2 inb_S400x128_S400x128_0_0 (lsblk m c t)

set_option maxHeartbeats 4000000 in
/-- A later point of the second pass: the second support scratch is read and a block of each output stored. -/
theorem sound_pass2 (c : Dev nD) (t : Fin cfg0.N) (hC : 25 < t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 50 := lt_of_lt_of_eq t.isLt N50
  have hA : t.val ≠ 0 := by omega
  have hD : 25 ≤ t.val := by omega
  have hc0 : ¬cond0_0 (grid0.coords t) := fun h => hA ((hcond0_0 t).mp h)
  have hc1 : ¬cond0_1 (grid0.coords t) := fun h => by have := (hcond0_1 t).mp h; omega
  have hc2 : ¬cond0_2 (grid0.coords t) := fun h => by have := (hcond0_2 t).mp h; omega
  have hc3 : cond0_3 (grid0.coords t) := (hcond0_3 t).mpr hD
  rw [show (dats m 0 c).leavesExact 8 t = owns (c : Thread nD τ) (ms0_8 t) fullShare ((dats m 0 c).after 8 t) from by
    unfold Dat.leavesExact; rw [liveAt0_8 t hD], after0_8]
  rw [show (dats m 0 c).leavesExact 9 t = owns (c : Thread nD τ) (ms0_9 t) fullShare ((dats m 0 c).after 9 t) from by
    unfold Dat.leavesExact; rw [liveAt0_9 t hD], after0_9]
  rw [PhiS_castSucc m c t, PhiS_pos m c _ _ hA]
  iintro ⟨⟨⟨%S, %T, %hInv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : S = sup2 m c := hInv.2.1 hC
  have hrun := run0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 hsc0 scM0_1 hsc1 hc0 hc1 hc2 hc3
    (iblk m c 0 t) (iblk m c 6 t) (iblk m c 7 t)
    ((dats m 0 c).before 8 t d8) ((dats m 0 c).before 9 t d9) (sup2 m c) Set.univ
  iapply (hrun _)
  isplitl [H0]; · iexact H0
  isplitl [H6]; · iexact H6
  isplitl [H7]; · iexact H7
  isplitl [H8]; · iexact H8
  isplitl [H9]; · iexact H9
  isplitl [HS0]; · iexact HS0
  iintro ⟨H0, H6, H7, H8, H9, HS0⟩
  isplitl [HS0 HS1 Hg]
  · isplitl [HS0 HS1]
    · iexists (sup2 m c), T
      isplitr
      · ipureintro
        exact ⟨fun h => by omega, fun _ => rfl, fun y _ => hInv.2.2 y (by have := ValueIdx.idx2_lt0 y; omega)⟩
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact read_writes_whole (ms0_8 t).view ((hs0_8 t).unread ((dats m 0 c).before 8 t d8)) hz2 inb_S400x128_S400x128_0_0 (mublk m c t)
  unfold owns; iexists _; isplitr
  swap; · iexact H9
  ipureintro; exact read_writes_whole (ms0_9 t).view ((hs0_9 t).unread ((dats m 0 c).before 9 t d9)) hz2 inb_S400x128_S400x128_0_0 (lsblk m c t)

/-- The body at any point: the closed forms of the four conditions say which of the four cases the point is in. -/
theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_first m c t hA
  · by_cases hB : t.val < 25
    · exact sound_pass1 m c t hA hB
    · by_cases hC : t.val = 25
      · exact sound_mid m c t hC
      · exact sound_pass2 m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the two scratches back at whatever they hold. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N50; omega), PhiA0_eq]
  iintro ⟨⟨%S, %T, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and every final state has every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.Blocks.lean ====
/-
  Each input window's block at a grid point, read at an index, as an entry of the program's argument
  arrays, at the ideal instance.

  A block's coordinate in its array is always (block index) * (block extent) + (coordinate inside the
  block). The adjacency window walks the 25 row blocks forwards on the first half of the grid and
  backwards on the second half; every other input window is its whole array, block index (0, 0). The two
  weight windows read arrays the host operations wrote: a concatenation along the columns of two argument
  arrays, then a change of format, the identity at the ideal values. The four bias windows read one-row
  reshapes of argument vectors.
-/
import proofs.«137288_g73933567034016_fold_wed_c4_870_19_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option synthInstance.maxSize 4096
set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The index maps over the grid -/

/-- The input windows' block indices at every grid point: the adjacency window's row block is the point's
    second coordinate on the first half of the grid and its mirror image on the second half; every other
    input window stays at block (0, 0). -/
theorem in_idx : ∀ t : Fin cfg0.N,
    win0_0.index t (0 : Fin 2) = (if t.val < 25 then t.val else 49 - t.val) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Output window 8's block index on the second half of the grid: the mirror image of the point's second
    coordinate, column block 0. -/
theorem out_idx8 : ∀ t : Fin cfg0.N, 25 ≤ t.val → win0_8.index t (0 : Fin 2) = 49 - t.val ∧ win0_8.index t (1 : Fin 2) = 0 :=
  (by decide +kernel : ∀ t : Fin grid0.N, _)

/-- Output window 9's block index on the second half of the grid. -/
theorem out_idx9 : ∀ t : Fin cfg0.N, 25 ≤ t.val → win0_9.index t (0 : Fin 2) = 49 - t.val ∧ win0_9.index t (1 : Fin 2) = 0 :=
  (by decide +kernel : ∀ t : Fin grid0.N, _)

/-- The adjacency row a grid point's block row stands for is a row of the array. -/
theorem adj_row_lt (t : Fin cfg0.N) (p : Fin 400) : 400 * (if t.val < 25 then t.val else 49 - t.val) + p.val < 10000 := by
  have ht : t.val < 50 := t.isLt
  have hp := p.isLt
  split <;> omega

/-! ## The adjacency window and the feature window: arrays no host operation writes -/

/-- Window 0's block at point `t` is rows [400 b, 400 b + 400) of the adjacency array, `b` the point's row block. -/
theorem adj_blk (c : Dev nD) (t : Fin cfg0.N) (p : Fin 400) (k : Fin 10000) :
    (iblk m c 0 t : Vec Ideal S400x10000 .f32) (ix2 p k)
      = m ((c : Thread nD τ).loc main_arg1) (ix2 (⟨400 * (if t.val < 25 then t.val else 49 - t.val) + p.val, adj_row_lt t p⟩ : Fin 10000) k) := by
  rw [← V_main_arg1 m c]
  show V m c main_arg1 (((cfg0.win 0).blk t).view.emb (ix2 p k)) = V m c main_arg1 _
  refine congrArg _ ?_
  obtain ⟨e0, e1, -⟩ := in_idx t
  funext a; apply Fin.ext
  match a with
  | ⟨0, _⟩ => show win0_0.index t (0 : Fin 2) * 400 + 1 * p.val = 400 * (if t.val < 25 then t.val else 49 - t.val) + p.val; rw [e0]; omega
  | ⟨1, _⟩ => show win0_0.index t (1 : Fin 2) * 10000 + 1 * k.val = k.val; omega

/-- Window 1's block is the whole feature array. -/
theorem x_blk (c : Dev nD) (t : Fin cfg0.N) (r : Fin 10000) (l : Fin 128) :
    (iblk m c 1 t : Vec Ideal S10000x128 .f32) (ix2 r l) = m ((c : Thread nD τ).loc main_arg0) (ix2 r l) := by
  rw [← V_main_arg0 m c]
  show V m c main_arg0 (((cfg0.win 1).blk t).view.emb (ix2 r l)) = V m c main_arg0 _
  refine congrArg _ ?_
  obtain ⟨-, -, e0, e1, -⟩ := in_idx t
  funext a; apply Fin.ext
  match a with
  | ⟨0, _⟩ => show win0_1.index t (0 : Fin 2) * 10000 + 1 * r.val = r.val; omega
  | ⟨1, _⟩ => show win0_1.index t (1 : Fin 2) * 128 + 1 * l.val = l.val; omega

/-! ## The two weight windows: a concatenation along the columns, then a change of format -/

/-- The left half of the columns of a two-piece concatenation, after the change of format, is the first piece. -/
theorem cat_lo (a b : Vec Ideal S128x128 .f32) (l q : Fin 128) :
    (truncf (F := Ideal) .bf16 (concatenate S128x256 1 [⟨S128x128, a⟩, ⟨S128x128, b⟩] concatenates_S128x128_S128x128_S128x256_d1) bitsLt_bf16_f32 : Vec Ideal S128x256 .bf16)
        (ix2 l (Fin.castLE (by decide : 128 ≤ 256) q)) = a (ix2 l q) := by
  rw [truncf_apply]
  exact concatenate_pair_apply_left (t := S128x256) (1 : Fin 2) a b concatenates_S128x128_S128x128_S128x256_d1 (ix2 l (Fin.castLE (by decide : 128 ≤ 256) q)) rfl (ix2 l q)
    (fun d => by match d with | ⟨0, _⟩ => rfl | ⟨1, _⟩ => rfl)

/-- The right half of the columns is the second piece, column `128 + q` its column `q`. -/
theorem cat_hi (a b : Vec Ideal S128x128 .f32) (l q : Fin 128) :
    (truncf (F := Ideal) .bf16 (concatenate S128x256 1 [⟨S128x128, a⟩, ⟨S128x128, b⟩] concatenates_S128x128_S128x128_S128x256_d1) bitsLt_bf16_f32 : Vec Ideal S128x256 .bf16)
        (ix2 l (⟨128 + q.val, by have := q.isLt; omega⟩ : Fin 256)) = b (ix2 l q) := by
  rw [truncf_apply]
  exact concatenate_pair_apply_right (t := S128x256) (1 : Fin 2) a b concatenates_S128x128_S128x128_S128x256_d1 (ix2 l (⟨128 + q.val, by have := q.isLt; omega⟩ : Fin 256)) rfl rfl (ix2 l q)
    (fun d hd => by match d with | ⟨0, _⟩ => rfl | ⟨1, _⟩ => exact absurd rfl hd)
    (by show q.val + 128 = 128 + q.val; omega)

/-- What the region finds in the first weight array: the two argument arrays side by side. -/
theorem V_main_v1 (c : Dev nD) :
    (V m c main_v1 : S128x256.Idx → Elt Ideal .bf16)
      = (truncf (F := Ideal) .bf16 (concatenate S128x256 1 [⟨S128x128, (m ((c : Thread nD τ).loc main_arg2) : S128x128.Idx → Elt Ideal .f32)⟩, ⟨S128x128, (m ((c : Thread nD τ).loc main_arg4) : S128x128.Idx → Elt Ideal .f32)⟩] concatenates_S128x128_S128x128_S128x256_d1) bitsLt_bf16_f32 : S128x256.Idx → Elt Ideal .bf16) := by
  dsimp only [Gen.V, Gen.hostOps0]
  after_results

/-- What the region finds in the second weight array. -/
theorem V_main_v3 (c : Dev nD) :
    (V m c main_v3 : S128x256.Idx → Elt Ideal .bf16)
      = (truncf (F := Ideal) .bf16 (concatenate S128x256 1 [⟨S128x128, (m ((c : Thread nD τ).loc main_arg6) : S128x128.Idx → Elt Ideal .f32)⟩, ⟨S128x128, (m ((c : Thread nD τ).loc main_arg8) : S128x128.Idx → Elt Ideal .f32)⟩] concatenates_S128x128_S128x128_S128x256_d1) bitsLt_bf16_f32 : S128x256.Idx → Elt Ideal .bf16) := by
  dsimp only [Gen.V, Gen.hostOps0]
  after_results

/-- Window 2 is its whole array: a coordinate inside the block is the coordinate in the array. -/
theorem emb_w2 (t : Fin cfg0.N) (j : S128x256.Idx) : ((cfg0.win 2).blk t).view.emb j = j := by
  obtain ⟨-, -, -, -, e0, e1, -⟩ := in_idx t
  funext a; apply Fin.ext
  match a with
  | ⟨0, _⟩ => show win0_2.index t (0 : Fin 2) * 128 + 1 * (j 0).val = (j 0).val; omega
  | ⟨1, _⟩ => show win0_2.index t (1 : Fin 2) * 256 + 1 * (j 1).val = (j 1).val; omega

/-- Window 3 is its whole array: a coordinate inside the block is the coordinate in the array. -/
theorem emb_w3 (t : Fin cfg0.N) (j : S128x256.Idx) : ((cfg0.win 3).blk t).view.emb j = j := by
  obtain ⟨-, -, -, -, -, -, e0, e1, -⟩ := in_idx t
  funext a; apply Fin.ext
  match a with
  | ⟨0, _⟩ => show win0_3.index t (0 : Fin 2) * 128 + 1 * (j 0).val = (j 0).val; omega
  | ⟨1, _⟩ => show win0_3.index t (1 : Fin 2) * 256 + 1 * (j 1).val = (j 1).val; omega

/-- Window 2's block, left half of the columns: the first argument of the first weight pair. -/
theorem w1_blk_lo (c : Dev nD) (t : Fin cfg0.N) (l q : Fin 128) :
    (iblk m c 2 t : Vec Ideal S128x256 .bf16) (ix2 l (Fin.castLE (by decide : 128 ≤ 256) q)) = m ((c : Thread nD τ).loc main_arg2) (ix2 l q) := by
  show V m c main_v1 (((cfg0.win 2).blk t).view.emb (ix2 l (Fin.castLE (by decide : 128 ≤ 256) q))) = _
  rw [emb_w2 t, V_main_v1]
  exact cat_lo _ _ l q

/-- Window 2's block, right half of the columns: the second argument of the first weight pair. -/
theorem w1_blk_hi (c : Dev nD) (t : Fin cfg0.N) (l q : Fin 128) :
    (iblk m c 2 t : Vec Ideal S128x256 .bf16) (ix2 l (⟨128 + q.val, by have := q.isLt; omega⟩ : Fin 256)) = m ((c : Thread nD τ).loc main_arg4) (ix2 l q) := by
  show V m c main_v1 (((cfg0.win 2).blk t).view.emb (ix2 l (⟨128 + q.val, by have := q.isLt; omega⟩ : Fin 256))) = _
  rw [emb_w2 t, V_main_v1]
  exact cat_hi _ _ l q

/-- Window 3's block, left half of the columns: the first argument of the second weight pair. -/
theorem w2_blk_lo (c : Dev nD) (t : Fin cfg0.N) (l q : Fin 128) :
    (iblk m c 3 t : Vec Ideal S128x256 .bf16) (ix2 l (Fin.castLE (by decide : 128 ≤ 256) q)) = m ((c : Thread nD τ).loc main_arg6) (ix2 l q) := by
  show V m c main_v3 (((cfg0.win 3).blk t).view.emb (ix2 l (Fin.castLE (by decide : 128 ≤ 256) q))) = _
  rw [emb_w3 t, V_main_v3]
  exact cat_lo _ _ l q

/-- Window 3's block, right half of the columns: the second argument of the second weight pair. -/
theorem w2_blk_hi (c : Dev nD) (t : Fin cfg0.N) (l q : Fin 128) :
    (iblk m c 3 t : Vec Ideal S128x256 .bf16) (ix2 l (⟨128 + q.val, by have := q.isLt; omega⟩ : Fin 256)) = m ((c : Thread nD τ).loc main_arg8) (ix2 l q) := by
  show V m c main_v3 (((cfg0.win 3).blk t).view.emb (ix2 l (⟨128 + q.val, by have := q.isLt; omega⟩ : Fin 256))) = _
  rw [emb_w3 t, V_main_v3]
  exact cat_hi _ _ l q

/-! ## The four bias windows: a vector as one row -/

/-- A vector reshaped to one row, read in that row at column `q`, is its entry `q`. -/
theorem row_read (v : Vec Ideal S128 .f32) (q : Fin 128) :
    (shapeCast S1x128 v shapeCasts_S128_S1x128 : Vec Ideal S1x128 .f32) (ix2 (0 : Fin 1) q) = v (ix1 q) := by
  refine (shapeCast_addUnit_apply ![128] v shapeCasts_S128_S1x128 (ix2 (0 : Fin 1) q)).trans (congrArg v ?_)
  funext a
  match a with
  | ⟨0, _⟩ => rfl

/-- What the region finds in the first bias row: the argument vector as one row. -/
theorem V_main_v4 (c : Dev nD) :
    (V m c main_v4 : S1x128.Idx → Elt Ideal .f32)
      = (shapeCast S1x128 (m ((c : Thread nD τ).loc main_arg3) : S128.Idx → Elt Ideal .f32) shapeCasts_S128_S1x128 : S1x128.Idx → Elt Ideal .f32) := by
  dsimp only [Gen.V, Gen.hostOps0]
  after_results
  rfl

/-- What the region finds in the second bias row: the argument vector as one row. -/
theorem V_main_v5 (c : Dev nD) :
    (V m c main_v5 : S1x128.Idx → Elt Ideal .f32)
      = (shapeCast S1x128 (m ((c : Thread nD τ).loc main_arg5) : S128.Idx → Elt Ideal .f32) shapeCasts_S128_S1x128 : S1x128.Idx → Elt Ideal .f32) := by
  dsimp only [Gen.V, Gen.hostOps0]
  after_results
  rfl

/-- What the region finds in the third bias row: the argument vector as one row. -/
theorem V_main_v6 (c : Dev nD) :
    (V m c main_v6 : S1x128.Idx → Elt Ideal .f32)
      = (shapeCast S1x128 (m ((c : Thread nD τ).loc main_arg7) : S128.Idx → Elt Ideal .f32) shapeCasts_S128_S1x128 : S1x128.Idx → Elt Ideal .f32) := by
  dsimp only [Gen.V, Gen.hostOps0]
  after_results
  rfl

/-- What the region finds in the fourth bias row: the argument vector as one row. -/
theorem V_main_v7 (c : Dev nD) :
    (V m c main_v7 : S1x128.Idx → Elt Ideal .f32)
      = (shapeCast S1x128 (m ((c : Thread nD τ).loc main_arg9) : S128.Idx → Elt Ideal .f32) shapeCasts_S128_S1x128 : S1x128.Idx → Elt Ideal .f32) := by
  dsimp only [Gen.V, Gen.hostOps0]
  after_results
  rfl

/-- Window 4's block is the first bias vector as one row. -/
theorem b1_blk (c : Dev nD) (t : Fin cfg0.N) (q : Fin 128) :
    (iblk m c 4 t : Vec Ideal S1x128 .f32) (ix2 (0 : Fin 1) q) = m ((c : Thread nD τ).loc main_arg3) (ix1 q) := by
  have hemb : ((cfg0.win 4).blk t).view.emb (ix2 (0 : Fin 1) q) = ix2 (0 : Fin 1) q := by
    obtain ⟨-, -, -, -, -, -, -, -, e0, e1, -⟩ := in_idx t
    funext a; apply Fin.ext
    match a with
    | ⟨0, _⟩ => show win0_4.index t (0 : Fin 2) * 1 + 1 * 0 = 0; omega
    | ⟨1, _⟩ => show win0_4.index t (1 : Fin 2) * 128 + 1 * q.val = q.val; omega
  show V m c main_v4 (((cfg0.win 4).blk t).view.emb (ix2 (0 : Fin 1) q)) = _
  rw [hemb, V_main_v4]
  exact row_read _ q

/-- Window 5's block is the second bias vector as one row. -/
theorem b2_blk (c : Dev nD) (t : Fin cfg0.N) (q : Fin 128) :
    (iblk m c 5 t : Vec Ideal S1x128 .f32) (ix2 (0 : Fin 1) q) = m ((c : Thread nD τ).loc main_arg5) (ix1 q) := by
  have hemb : ((cfg0.win 5).blk t).view.emb (ix2 (0 : Fin 1) q) = ix2 (0 : Fin 1) q := by
    obtain ⟨-, -, -, -, -, -, -, -, -, -, e0, e1, -⟩ := in_idx t
    funext a; apply Fin.ext
    match a with
    | ⟨0, _⟩ => show win0_5.index t (0 : Fin 2) * 1 + 1 * 0 = 0; omega
    | ⟨1, _⟩ => show win0_5.index t (1 : Fin 2) * 128 + 1 * q.val = q.val; omega
  show V m c main_v5 (((cfg0.win 5).blk t).view.emb (ix2 (0 : Fin 1) q)) = _
  rw [hemb, V_main_v5]
  exact row_read _ q

/-- Window 6's block is the third bias vector as one row. -/
theorem bmu_blk (c : Dev nD) (t : Fin cfg0.N) (q : Fin 128) :
    (iblk m c 6 t : Vec Ideal S1x128 .f32) (ix2 (0 : Fin 1) q) = m ((c : Thread nD τ).loc main_arg7) (ix1 q) := by
  have hemb : ((cfg0.win 6).blk t).view.emb (ix2 (0 : Fin 1) q) = ix2 (0 : Fin 1) q := by
    obtain ⟨-, -, -, -, -, -, -, -, -, -, -, -, e0, e1, -⟩ := in_idx t
    funext a; apply Fin.ext
    match a with
    | ⟨0, _⟩ => show win0_6.index t (0 : Fin 2) * 1 + 1 * 0 = 0; omega
    | ⟨1, _⟩ => show win0_6.index t (1 : Fin 2) * 128 + 1 * q.val = q.val; omega
  show V m c main_v6 (((cfg0.win 6).blk t).view.emb (ix2 (0 : Fin 1) q)) = _
  rw [hemb, V_main_v6]
  exact row_read _ q

/-- Window 7's block is the fourth bias vector as one row. -/
theorem bls_blk (c : Dev nD) (t : Fin cfg0.N) (q : Fin 128) :
    (iblk m c 7 t : Vec Ideal S1x128 .f32) (ix2 (0 : Fin 1) q) = m ((c : Thread nD τ).loc main_arg9) (ix1 q) := by
  have hemb : ((cfg0.win 7).blk t).view.emb (ix2 (0 : Fin 1) q) = ix2 (0 : Fin 1) q := by
    obtain ⟨-, -, -, -, -, -, -, -, -, -, -, -, -, -, e0, e1⟩ := in_idx t
    funext a; apply Fin.ext
    match a with
    | ⟨0, _⟩ => show win0_7.index t (0 : Fin 2) * 1 + 1 * 0 = 0; omega
    | ⟨1, _⟩ => show win0_7.index t (1 : Fin 2) * 128 + 1 * q.val = q.val; omega
  show V m c main_v7 (((cfg0.win 7).blk t).view.emb (ix2 (0 : Fin 1) q)) = _
  rw [hemb, V_main_v7]
  exact row_read _ q

end Cert.KernelIdeal.Blocks

end
-- ==== Proof.PayIdx.lean ====
/-
  The six pure payload terms of the kernel body read at an index, at the ideal instance.

  Each payload is a chain of pointwise operations, identity shape casts, column slices, a row
  broadcast and a matrix product into the zero accumulator. At the ideal values a change of format is
  the identity and the matrix product at output index (r, j) is the plain sum over the contraction
  coordinate l of lhs (r, l) * rhs (l, j); a slice of columns [o, o + 128) reads column o + q; a
  one-row broadcast reads row 0.
-/
import proofs.«137288_g73933567034016_fold_wed_c4_870_19_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.PayIdx

open Cert.KernelIdeal Cert.KernelIdeal.Gen Idealize.ShloMosaic Idealize.ShloMosaic.ValueIdx
open scoped BigOperators

/-! ## The two contractions: operand indices by axis -/

/-- Left operand index of `dot_S10000x128_S128x256_S10000x256_1_0_0_1_n_n`, axis 0: the output row. -/
theorem lhs_proj_0 (i : S10000x256.Idx) (q : dot_S10000x128_S128x256_S10000x256_1_0_0_1_n_n.contr.Idx) :
    (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
/-- Left operand index, axis 1: the contraction coordinate. -/
theorem lhs_proj_1 (i : S10000x256.Idx) (q : dot_S10000x128_S128x256_S10000x256_1_0_0_1_n_n.contr.Idx) :
    (dot_S10000x128_S128x256_S10000x256_1_0_0_1_n_n.lhsIdx i q 1).val = (q ⟨0, by decide⟩).val :=
  dot_S10000x128_S128x256_S10000x256_1_0_0_1_n_n.lhsIdx_val_of_single rfl i q
/-- Right operand index, axis 0: the contraction coordinate. -/
theorem rhs_proj_0 (i : S10000x256.Idx) (q : dot_S10000x128_S128x256_S10000x256_1_0_0_1_n_n.contr.Idx) :
    (dot_S10000x128_S128x256_S10000x256_1_0_0_1_n_n.rhsIdx i q 0).val = (q ⟨0, by decide⟩).val :=
  dot_S10000x128_S128x256_S10000x256_1_0_0_1_n_n.rhsIdx_val_of_single rfl i q
/-- Right operand index, axis 1: the output column. -/
theorem rhs_proj_1 (i : S10000x256.Idx) (q : dot_S10000x128_S128x256_S10000x256_1_0_0_1_n_n.contr.Idx) :
    (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- Left operand index of `dot_S400x10000_S10000x256_S400x256_1_0_0_1_n_n`, axis 0: the output row. -/
theorem lhs_agg_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
/-- Left operand index, axis 1: the contraction coordinate. -/
theorem lhs_agg_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
/-- Right operand index, axis 0: the contraction coordinate. -/
theorem rhs_agg_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
/-- Right operand index, axis 1: the output column. -/
theorem rhs_agg_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-! ## A matrix product into the zero accumulator, read at an index -/

/-- The [10000,128] × [128,256] product into zero at (r, j): the sum over l of x (r, l) * w (l, j). -/
theorem matmul_proj_apply {φ₁ φ₂ : FTy} (x : FVec Ideal S10000x128 φ₁) (w : FVec Ideal S128x256 φ₂) (r : Fin 10000) (j : Fin 256) :
    matmul (F := Ideal) dot_S10000x128_S128x256_S10000x256_1_0_0_1_n_n none x w (constant (F := Ideal) S10000x256 .f32 0x00000000#32) (ix2 r j)
      = ∑ l : Fin 128, x (ix2 r l) * w (ix2 l j) := by
  refine (Ideal.matmul_constant_zero_apply dot_S10000x128_S128x256_S10000x256_1_0_0_1_n_n none x w (ix2 r j)).trans ?_
  rw [← Equiv.sum_comp (contrEquiv1 dot_S10000x128_S128x256_S10000x256_1_0_0_1_n_n 128 rfl rfl).symm]
  refine Finset.sum_congr rfl fun k _ => ?_
  have hk := contrEquiv1_symm_val dot_S10000x128_S128x256_S10000x256_1_0_0_1_n_n 128 rfl rfl k
  have el : dot_S10000x128_S128x256_S10000x256_1_0_0_1_n_n.lhsIdx (ix2 r j) ((contrEquiv1 dot_S10000x128_S128x256_S10000x256_1_0_0_1_n_n 128 rfl rfl).symm k) = ix2 r k := funext fun a => Fin.ext (by
    match a with
    | ⟨0, _⟩ => exact lhs_proj_0 _ _
    | ⟨1, _⟩ => exact (lhs_proj_1 _ _).trans hk)
  have er : dot_S10000x128_S128x256_S10000x256_1_0_0_1_n_n.rhsIdx (ix2 r j) ((contrEquiv1 dot_S10000x128_S128x256_S10000x256_1_0_0_1_n_n 128 rfl rfl).symm k) = ix2 k j := funext fun a => Fin.ext (by
    match a with
    | ⟨0, _⟩ => exact (rhs_proj_0 _ _).trans hk
    | ⟨1, _⟩ => exact rhs_proj_1 _ _)
  rw [el, er]

/-- The [400,10000] × [10000,256] product into zero at (r, j): the sum over l of x (r, l) * w (l, j). -/
theorem matmul_agg_apply {φ₁ φ₂ : FTy} (x : FVec Ideal S400x10000 φ₁) (w : FVec Ideal S10000x256 φ₂) (r : Fin 400) (j : Fin 256) :
    matmul (F := Ideal) dot_S400x10000_S10000x256_S400x256_1_0_0_1_n_n none x w (constant (F := Ideal) S400x256 .f32 0x00000000#32) (ix2 r j)
      = ∑ l : Fin 10000, x (ix2 r l) * w (ix2 l j) := by
  refine (Ideal.matmul_constant_zero_apply dot_S400x10000_S10000x256_S400x256_1_0_0_1_n_n none x w (ix2 r j)).trans ?_
  rw [← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 r j) ((contrEquiv1 dot_S400x10000_S10000x256_S400x256_1_0_0_1_n_n 10000 rfl rfl).symm k) = ix2 r k := funext fun a => Fin.ext (by
    match a with
    | ⟨0, _⟩ => exact lhs_agg_0 _ _
    | ⟨1, _⟩ => exact (lhs_agg_1 _ _).trans hk)
  have er : dot_S400x10000_S10000x256_S400x256_1_0_0_1_n_n.rhsIdx (ix2 r j) ((contrEquiv1 dot_S400x10000_S10000x256_S400x256_1_0_0_1_n_n 10000 rfl rfl).symm k) = ix2 k j := funext fun a => Fin.ext (by
    match a with
    | ⟨0, _⟩ => exact (rhs_agg_0 _ _).trans hk
    | ⟨1, _⟩ => exact rhs_agg_1 _ _)
  rw [el, er]

/-! ## The payloads -/

/-- The first projection: row r of x times column j of w. -/
theorem pay1_apply (x : Vec Ideal S10000x128 .f32) (w : Vec Ideal S128x256 .bf16) (r : Fin 10000) (j : Fin 256) :
    k0_pay1 (F := Ideal) x w (ix2 r j) = ∑ l : Fin 128, x (ix2 r l) * w (ix2 l j) := by
  have hw : shapeCast S128x256 w shapeCasts_S128x256_S128x256 = w := shapeCast_self _ _
  unfold k0_pay1
  refine (congrFun (shapeCast_self _ _) _).trans ?_
  rw [hw]
  exact matmul_proj_apply (φ₁ := .bf16) (φ₂ := .bf16) _ _ r j

/-- The second projection: row r of h times column j of w. -/
theorem pay2_apply (h : Vec Ideal S10000x128 .bf16) (w : Vec Ideal S128x256 .bf16) (r : Fin 10000) (j : Fin 256) :
    k0_pay2 (F := Ideal) h w (ix2 r j) = ∑ l : Fin 128, h (ix2 r l) * w (ix2 l j) := by
  have hw : shapeCast S128x256 w shapeCasts_S128x256_S128x256 = w := shapeCast_self _ _
  unfold k0_pay2
  refine (congrFun (shapeCast_self _ _) _).trans ?_
  rw [hw]
  exact matmul_proj_apply (φ₁ := .bf16) (φ₂ := .bf16) _ _ r j

/-- The aggregation: row p of a times column j of s. -/
theorem pay3_apply (a : Vec Ideal S400x10000 .f32) (s : Vec Ideal S10000x256 .bf16) (p : Fin 400) (j : Fin 256) :
    k0_pay3 (F := Ideal) a s (ix2 p j) = ∑ k : Fin 10000, a (ix2 p k) * s (ix2 k j) := by
  unfold k0_pay3
  exact matmul_agg_apply (φ₁ := .bf16) (φ₂ := .bf16) _ _ p j

/-! ## The two column halves of the aggregation, and the bias row -/

/-- Columns [0, 128) of the aggregation at (p, q): its column q. -/
theorem pay3_lo_apply (a : Vec Ideal S400x10000 .f32) (s : Vec Ideal S10000x256 .bf16) (p : Fin 400) (q : Fin 128) :
    extractStridedSlice S400x128 ![0, 0] (k0_pay3 (F := Ideal) a s) slices_S400x256_o0_0_S400x128 (ix2 p q)
      = ∑ k : Fin 10000, a (ix2 p k) * s (ix2 k (Fin.castLE (by decide : 128 ≤ 256) q)) :=
  (slice2_axis1_apply 0 _ _ p q (Fin.castLE (by decide : 128 ≤ 256) q) (Nat.zero_add _).symm).trans (pay3_apply a s p _)

/-- Columns [128, 256) of the aggregation at (p, q): its column 128 + q. -/
theorem pay3_hi_apply (a : Vec Ideal S400x10000 .f32) (s : Vec Ideal S10000x256 .bf16) (p : Fin 400) (q : Fin 128) :
    extractStridedSlice S400x128 ![0, 128] (k0_pay3 (F := Ideal) a s) slices_S400x256_o0_128_S400x128 (ix2 p q)
      = ∑ k : Fin 10000, a (ix2 p k) * s (ix2 k (⟨128 + q.val, by have := q.isLt; omega⟩ : Fin 256)) :=
  (slice2_axis1_apply 128 _ _ p q (⟨128 + q.val, by have := q.isLt; omega⟩ : Fin 256) rfl).trans (pay3_apply a s p _)

/-- A [1,128] bias row broadcast over 400 rows reads, at (p, q), the row's entry q. -/
theorem bias_apply (b : Vec Ideal S1x128 .f32) (p : Fin 400) (q : Fin 128) :
    broadcastTo S400x128 (shapeCast S1x128 b shapeCasts_S1x128_S1x128) broadcasts_S1x128_S400x128 (ix2 p q)
      = b (ix2 (0 : Fin 1) q) :=
  (broadcastTo_1b_ab_apply _ _ p q).trans (congrFun (shapeCast_self _ _) _)

/-! ## The gated payloads -/

/-- The first pre-activation: the low half of the aggregation plus its bias. -/
theorem pay5_apply (a : Vec Ideal S400x10000 .f32) (s : Vec Ideal S10000x256 .bf16) (b : Vec Ideal S1x128 .f32) (p : Fin 400) (q : Fin 128) :
    k0_pay5 (F := Ideal) a s b (ix2 p q)
      = (∑ k : Fin 10000, a (ix2 p k) * s (ix2 k (Fin.castLE (by decide : 128 ≤ 256) q))) + b (ix2 (0 : Fin 1) q) := by
  unfold k0_pay5
  refine (addf_apply _ _ _).trans ?_
  rw [pay3_lo_apply, bias_apply]

/-- The second pre-activation: the high half of the aggregation plus its bias. -/
theorem pay6_apply (a : Vec Ideal S400x10000 .f32) (s : Vec Ideal S10000x256 .bf16) (b : Vec Ideal S1x128 .f32) (p : Fin 400) (q : Fin 128) :
    k0_pay6 (F := Ideal) a s b (ix2 p q)
      = (∑ k : Fin 10000, a (ix2 p k) * s (ix2 k (⟨128 + q.val, by have := q.isLt; omega⟩ : Fin 256))) + b (ix2 (0 : Fin 1) q) := by
  unfold k0_pay6
  refine (addf_apply _ _ _).trans ?_
  rw [pay3_hi_apply, bias_apply]

/-- The gated output is the hyperbolic tangent of the first pre-activation times the logistic of the second. -/
theorem pay4_eq (a : Vec Ideal S400x10000 .f32) (s : Vec Ideal S10000x256 .bf16) (b1 b2 : Vec Ideal S1x128 .f32) (p : Fin 400) (q : Fin 128) :
    k0_pay4 (F := Ideal) a s b1 b2 (ix2 p q)
      = Ideal.tanh (k0_pay5 (F := Ideal) a s b1 (ix2 p q)) * Ideal.logistic (k0_pay6 (F := Ideal) a s b2 (ix2 p q)) := by
  unfold k0_pay4
  exact congrFun (shapeCast_self _ _) _

/-- The gated output at (p, q), in the operands' entries. -/
theorem pay4_apply (a : Vec Ideal S400x10000 .f32) (s : Vec Ideal S10000x256 .bf16) (b1 b2 : Vec Ideal S1x128 .f32) (p : Fin 400) (q : Fin 128) :
    k0_pay4 (F := Ideal) a s b1 b2 (ix2 p q)
      = Ideal.tanh ((∑ k : Fin 10000, a (ix2 p k) * s (ix2 k (Fin.castLE (by decide : 128 ≤ 256) q))) + b1 (ix2 (0 : Fin 1) q))
        * Ideal.logistic ((∑ k : Fin 10000, a (ix2 p k) * s (ix2 k (⟨128 + q.val, by have := q.isLt; omega⟩ : Fin 256))) + b2 (ix2 (0 : Fin 1) q)) := by
  rw [pay4_eq, pay5_apply, pay6_apply]

end Cert.KernelIdeal.PayIdx

end
-- ==== Proof.Spec.lean ====
/-
  The mathematics both programs compute, over the extended reals, index by index.

  With x : 10000 x 128, adj : 10000 x 10000, four weight matrices W : 128 x 128 and four bias rows b : 128:

    support x W   k j = sum over l of  x k l * W l j                      (the dense product  x W)
    gconv adj h b i j = (sum over k of  adj i k * h k j) + b j            (one graph convolution: adj h + b)
    hidden        k l = tanh (gconv adj (x W1) b1 k l) * logistic (gconv adj (x W2) b2 k l)
    head Wo bo    i j = gconv adj (hidden Wo) bo i j

  The two results are `head Wmu bmu` and `head Wls bls`. Every product of three matrices is grouped as
  adj (h W), never (adj h) W, on both sides, so the two programs agree sum by sum and no distributive law —
  hence no finiteness of the inputs — is needed; the logistic function is 1 / (1 + exp (-z)) with the
  conventions of the extended reals at the two infinities.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The dense product `x W` at row `k`, column `j`. -/
def support (x : Fin 10000 → Fin 128 → EReal) (W : Fin 128 → Fin 128 → EReal) (k : Fin 10000) (j : Fin 128) : EReal :=
  ∑ l : Fin 128, x k l * W l j

/-- One graph convolution `adj h + b` at row `i`, column `j`. -/
def gconv (adj : Fin 10000 → Fin 10000 → EReal) (h : Fin 10000 → Fin 128 → EReal) (b : Fin 128 → EReal)
    (i : Fin 10000) (j : Fin 128) : EReal :=
  (∑ k : Fin 10000, adj i k * h k j) + b j

/-- The gated hidden layer: `tanh` of one convolution times the logistic function of another. -/
def hidden (x : Fin 10000 → Fin 128 → EReal) (adj : Fin 10000 → Fin 10000 → EReal)
    (W1 : Fin 128 → Fin 128 → EReal) (b1 : Fin 128 → EReal) (W2 : Fin 128 → Fin 128 → EReal) (b2 : Fin 128 → EReal)
    (k : Fin 10000) (l : Fin 128) : EReal :=
  Ideal.tanh (gconv adj (support x W1) b1 k l) * Ideal.logistic (gconv adj (support x W2) b2 k l)

/-- An output head: a convolution of the hidden layer. -/
def head (x : Fin 10000 → Fin 128 → EReal) (adj : Fin 10000 → Fin 10000 → EReal)
    (W1 : Fin 128 → Fin 128 → EReal) (b1 : Fin 128 → EReal) (W2 : Fin 128 → Fin 128 → EReal) (b2 : Fin 128 → EReal)
    (Wo : Fin 128 → Fin 128 → EReal) (bo : Fin 128 → EReal) (i : Fin 10000) (j : Fin 128) : EReal :=
  gconv adj (support (hidden x adj W1 b1 W2 b2) Wo) bo i j

/-! ## The same over arrays indexed by shape indices -/

/-- A rank-2 array read by its two coordinates. -/
abbrev mat {n0 n1 : Nat} (a : (⟨2, ![n0, n1]⟩ : Shape).Idx → EReal) (r : Fin n0) (q : Fin n1) : EReal := a (ix2 r q)
/-- A rank-1 array read by its coordinate. -/
abbrev vec {n : Nat} (a : (⟨1, ![n]⟩ : Shape).Idx → EReal) (q : Fin n) : EReal := a (ix1 q)

/-- An output head as an array: the value at the index with coordinates `(i, j)` is `head … i j`. -/
def headArr (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wo : (⟨2, ![128, 128]⟩ : Shape).Idx → EReal) (bo : (⟨1, ![128]⟩ : Shape).Idx → EReal) :
    (⟨2, ![10000, 128]⟩ : Shape).Idx → EReal :=
  fun y => head (mat x) (mat adj) (mat W1) (vec b1) (mat W2) (vec b2) (mat Wo) (vec bo) (y 0) (y 1)

theorem headArr_apply (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wo : (⟨2, ![128, 128]⟩ : Shape).Idx → EReal) (bo : (⟨1, ![128]⟩ : Shape).Idx → EReal) (i : Fin 10000) (j : Fin 128) :
    headArr x adj W1 b1 W2 b2 Wo bo (ix2 i j)
      = head (mat x) (mat adj) (mat W1) (vec b1) (mat W2) (vec b2) (mat Wo) (vec bo) i j := rfl

end Cert.Spec

end
-- ==== Proof.KernelValue.lean ====
/-
  The value of the idealized kernel: after the run, each of the two result arrays is the corresponding output
  head of the specification, index by index, as a function of the ten argument arrays.

  The chain of equalities follows the data through the kernel. The first support scratch holds the dense
  product of the features with the two first-layer weight matrices side by side, so its left half is
  `support x W1` and its right half `support x W2`. Slab t of the hidden layer is computed from adjacency rows
  [400 t, 400 t + 400), so its row p is row 400 t + p of the hidden layer; hence the hidden-layer scratch, read
  as "row r is row r mod 400 of slab r div 400", is the hidden layer. The second support scratch is then the
  hidden layer times the two head matrices side by side. At point t of the second pass the adjacency block is
  rows [400 (49 - t), 400 (49 - t) + 400), and the block written back goes to the same rows of the result: the 25
  points of the second pass visit the 25 row blocks in reverse order, each exactly once, so together they tile
  the result.
-/
import proofs.«137288_g73933567034016_fold_wed_c4_870_19_alg».proof.Proof.KernelIdeal.Body
import proofs.«137288_g73933567034016_fold_wed_c4_870_19_alg».proof.Proof.Blocks
import proofs.«137288_g73933567034016_fold_wed_c4_870_19_alg».proof.Proof.PayIdx
import proofs.«137288_g73933567034016_fold_wed_c4_870_19_alg».proof.Proof.Spec
import Idealize.ShloMosaic.Lib.ValueIdx
import Idealize.ShloMosaic.Lib.Pipeline.Value

set_option maxRecDepth 16384

noncomputable section

open scoped BigOperators

namespace Cert.KernelIdeal.ValueLeg

open Cert.KernelIdeal Cert.KernelIdeal.Gen Cert.KernelIdeal.Hand Cert.KernelIdeal.Blocks Cert.KernelIdeal.PayIdx Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The ten argument arrays on a core -/

abbrev X (c : Dev nD) : Vec Ideal S10000x128 .f32 := m ((c : Thread nD τ).loc main_arg0)
abbrev Adj (c : Dev nD) : Vec Ideal S10000x10000 .f32 := m ((c : Thread nD τ).loc main_arg1)
abbrev W1 (c : Dev nD) : Vec Ideal S128x128 .f32 := m ((c : Thread nD τ).loc main_arg2)
abbrev B1 (c : Dev nD) : Vec Ideal S128 .f32 := m ((c : Thread nD τ).loc main_arg3)
abbrev W2 (c : Dev nD) : Vec Ideal S128x128 .f32 := m ((c : Thread nD τ).loc main_arg4)
abbrev B2 (c : Dev nD) : Vec Ideal S128 .f32 := m ((c : Thread nD τ).loc main_arg5)
abbrev Wmu (c : Dev nD) : Vec Ideal S128x128 .f32 := m ((c : Thread nD τ).loc main_arg6)
abbrev Bmu (c : Dev nD) : Vec Ideal S128 .f32 := m ((c : Thread nD τ).loc main_arg7)
abbrev Wls (c : Dev nD) : Vec Ideal S128x128 .f32 := m ((c : Thread nD τ).loc main_arg8)
abbrev Bls (c : Dev nD) : Vec Ideal S128 .f32 := m ((c : Thread nD τ).loc main_arg9)

/-- The two results, as the specification's output heads of the argument arrays. -/
abbrev Gmu (c : Dev nD) : Vec Ideal S10000x128 .f32 := headArr (X m c) (Adj m c) (W1 m c) (B1 m c) (W2 m c) (B2 m c) (Wmu m c) (Bmu m c)
abbrev Gls (c : Dev nD) : Vec Ideal S10000x128 .f32 := headArr (X m c) (Adj m c) (W1 m c) (B1 m c) (W2 m c) (B2 m c) (Wls m c) (Bls m c)

/-! ## The scratch contents are the specification's intermediate matrices -/

/-- The left half of the first support scratch is `x W1`. -/
theorem sup1_lo (c : Dev nD) (k : Fin 10000) (q : Fin 128) :
    sup1 m c (ix2 k (Fin.castLE (by decide : 128 ≤ 256) q)) = support (mat (X m c)) (mat (W1 m c)) k q :=
  (pay1_apply (iblk m c 1 tFirst) (iblk m c 2 tFirst) k (Fin.castLE (by decide : 128 ≤ 256) q)).trans
    (Finset.sum_congr rfl fun l _ => congrArg₂ (· * ·) (x_blk m c tFirst k l) (w1_blk_lo m c tFirst l q))

/-- The right half of the first support scratch is `x W2`. -/
theorem sup1_hi (c : Dev nD) (k : Fin 10000) (q : Fin 128) :
    sup1 m c (ix2 k (⟨128 + q.val, by have := q.isLt; omega⟩ : Fin 256)) = support (mat (X m c)) (mat (W2 m c)) k q :=
  (pay1_apply (iblk m c 1 tFirst) (iblk m c 2 tFirst) k (⟨128 + q.val, by have := q.isLt; omega⟩ : Fin 256)).trans
    (Finset.sum_congr rfl fun l _ => congrArg₂ (· * ·) (x_blk m c tFirst k l) (w1_blk_hi m c tFirst l q))

/-- The adjacency block of a point of the first pass is rows [400 t, 400 t + 400) of the adjacency matrix. -/
theorem adj_first (c : Dev nD) (t : Fin cfg0.N) (ht : t.val < 25) (p : Fin 400) (k : Fin 10000) :
    (iblk m c 0 t : Vec Ideal S400x10000 .f32) (ix2 p k)
      = mat (Adj m c) (⟨400 * t.val + p.val, by have := p.isLt; omega⟩ : Fin 10000) k := by
  rw [adj_blk m c t p k]
  exact congrArg (fun r : Fin 10000 => Adj m c (ix2 r k)) (Fin.ext (by show 400 * (if t.val < 25 then t.val else 49 - t.val) + p.val = 400 * t.val + p.val; rw [if_pos ht]))

/-- The adjacency block of a point of the second pass is rows [400 (49 - t), 400 (49 - t) + 400). -/
theorem adj_second (c : Dev nD) (t : Fin cfg0.N) (ht : 25 ≤ t.val) (p : Fin 400) (k : Fin 10000) :
    (iblk m c 0 t : Vec Ideal S400x10000 .f32) (ix2 p k)
      = mat (Adj m c) (⟨400 * (49 - t.val) + p.val, by have := p.isLt; have := lt_of_lt_of_eq t.isLt N50; omega⟩ : Fin 10000) k := by
  rw [adj_blk m c t p k]
  exact congrArg (fun r : Fin 10000 => Adj m c (ix2 r k)) (Fin.ext (by show 400 * (if t.val < 25 then t.val else 49 - t.val) + p.val = 400 * (49 - t.val) + p.val; rw [if_neg (by omega)]))

/-- Row `p` of slab `t` is row `400 t + p` of the hidden layer. -/
theorem hslab_eq (c : Dev nD) (t : Fin cfg0.N) (ht : t.val < 25) (p : Fin 400) (q : Fin 128) :
    hslab m c t (ix2 p q)
      = Cert.Spec.hidden (mat (X m c)) (mat (Adj m c)) (mat (W1 m c)) (vec (B1 m c)) (mat (W2 m c)) (vec (B2 m c)) (⟨400 * t.val + p.val, by have := p.isLt; omega⟩ : Fin 10000) q := by
  unfold hslab
  refine (pay4_apply (iblk m c 0 t) (sup1 m c) (iblk m c 4 t) (iblk m c 5 t) p q).trans ?_
  unfold Cert.Spec.hidden gconv
  refine congrArg₂ (· * ·) (congrArg Ideal.tanh (congrArg₂ (· + ·) ?_ (b1_blk m c t q))) (congrArg Ideal.logistic (congrArg₂ (· + ·) ?_ (b2_blk m c t q)))
  · exact Finset.sum_congr rfl fun k _ => congrArg₂ (· * ·) (adj_first m c t ht p k) (sup1_lo m c k q)
  · exact Finset.sum_congr rfl fun k _ => congrArg₂ (· * ·) (adj_first m c t ht p k) (sup1_hi m c k q)

/-- The hidden-layer scratch, once every slab is stored, is the hidden layer. -/
theorem hid_eq (c : Dev nD) (r : Fin 10000) (l : Fin 128) :
    hid m c (ix2 r l) = Cert.Spec.hidden (mat (X m c)) (mat (Adj m c)) (mat (W1 m c)) (vec (B1 m c)) (mat (W2 m c)) (vec (B2 m c)) r l := by
  unfold hid
  have hr := r.isLt
  refine (hslab_eq m c ⟨r.val / 400, lt_of_lt_of_eq (by omega : r.val / 400 < 50) N50.symm⟩ (by show r.val / 400 < 25; omega)
    ⟨r.val % 400, Nat.mod_lt _ (by omega)⟩ l).trans ?_
  exact congrArg (fun r' : Fin 10000 => Cert.Spec.hidden (mat (X m c)) (mat (Adj m c)) (mat (W1 m c)) (vec (B1 m c)) (mat (W2 m c)) (vec (B2 m c)) r' l)
    (Fin.ext (by show 400 * (r.val / 400) + r.val % 400 = r.val; omega))

/-- The left half of the second support scratch is the hidden layer times `Wmu`, the right half times `Wls`. -/
theorem sup2_lo (c : Dev nD) (k : Fin 10000) (q : Fin 128) :
    sup2 m c (ix2 k (Fin.castLE (by decide : 128 ≤ 256) q)) = support (Cert.Spec.hidden (mat (X m c)) (mat (Adj m c)) (mat (W1 m c)) (vec (B1 m c)) (mat (W2 m c)) (vec (B2 m c))) (mat (Wmu m c)) k q :=
  (pay2_apply (hid m c) (iblk m c 3 tMid) k (Fin.castLE (by decide : 128 ≤ 256) q)).trans
    (Finset.sum_congr rfl fun l _ => congrArg₂ (· * ·) (hid_eq m c k l) (w2_blk_lo m c tMid l q))

theorem sup2_hi (c : Dev nD) (k : Fin 10000) (q : Fin 128) :
    sup2 m c (ix2 k (⟨128 + q.val, by have := q.isLt; omega⟩ : Fin 256)) = support (Cert.Spec.hidden (mat (X m c)) (mat (Adj m c)) (mat (W1 m c)) (vec (B1 m c)) (mat (W2 m c)) (vec (B2 m c))) (mat (Wls m c)) k q :=
  (pay2_apply (hid m c) (iblk m c 3 tMid) k (⟨128 + q.val, by have := q.isLt; omega⟩ : Fin 256)).trans
    (Finset.sum_congr rfl fun l _ => congrArg₂ (· * ·) (hid_eq m c k l) (w2_blk_hi m c tMid l q))

/-- Row `p` of the block of the first result stored at a point `t` of the second pass is row `400 (49 - t) + p` of
    the first output head; likewise for the second result. -/
theorem mublk_eq (c : Dev nD) (t : Fin cfg0.N) (ht : 25 ≤ t.val) (p : Fin 400) (q : Fin 128) :
    mublk m c t (ix2 p q)
      = head (mat (X m c)) (mat (Adj m c)) (mat (W1 m c)) (vec (B1 m c)) (mat (W2 m c)) (vec (B2 m c)) (mat (Wmu m c)) (vec (Bmu m c))
          (⟨400 * (49 - t.val) + p.val, by have := p.isLt; have := lt_of_lt_of_eq t.isLt N50; omega⟩ : Fin 10000) q := by
  unfold mublk
  refine (pay5_apply (iblk m c 0 t) (sup2 m c) (iblk m c 6 t) p q).trans ?_
  unfold head gconv
  exact congrArg₂ (· + ·) (Finset.sum_congr rfl fun k _ => congrArg₂ (· * ·) (adj_second m c t ht p k) (sup2_lo m c k q)) (bmu_blk m c t q)

theorem lsblk_eq (c : Dev nD) (t : Fin cfg0.N) (ht : 25 ≤ t.val) (p : Fin 400) (q : Fin 128) :
    lsblk m c t (ix2 p q)
      = head (mat (X m c)) (mat (Adj m c)) (mat (W1 m c)) (vec (B1 m c)) (mat (W2 m c)) (vec (B2 m c)) (mat (Wls m c)) (vec (Bls m c))
          (⟨400 * (49 - t.val) + p.val, by have := p.isLt; have := lt_of_lt_of_eq t.isLt N50; omega⟩ : Fin 10000) q := by
  unfold lsblk
  refine (pay6_apply (iblk m c 0 t) (sup2 m c) (iblk m c 7 t) p q).trans ?_
  unfold head gconv
  exact congrArg₂ (· + ·) (Finset.sum_congr rfl fun k _ => congrArg₂ (· * ·) (adj_second m c t ht p k) (sup2_hi m c k q)) (bls_blk m c t q)

/-! ## From the blocks written back to the whole arrays -/

/-- What a point of the second pass writes back into the first result is its block of the first output head. -/
theorem flushed8_eq (c : Dev nD) (t : Fin cfg0.N) (hf : (cfg0.win 8).flush t = true) :
    (dats m 0 c).flushed 8 t = ((cfg0.win 8).blk t).view.read (Elt Ideal) (Gmu m c) := by
  have ht : 25 ≤ t.val := (flush0_8 t).mp hf
  show (cfg0.win 8).cut (grid0.coords t) ((dats m 0 c).after 8 t) = _
  rw [after0_8]
  funext j
  obtain ⟨p, q, rfl⟩ : ∃ (p : Fin 400) (q : Fin 128), j = ix2 p q := ⟨j 0, j 1, eq_ix2 j⟩
  show mublk m c t (ix2 p q) = Gmu m c (((cfg0.win 8).blk t).view.emb (ix2 p q))
  have he : ((cfg0.win 8).blk t).view.emb (ix2 p q)
      = ix2 (⟨400 * (49 - t.val) + p.val, by have := p.isLt; have := lt_of_lt_of_eq t.isLt N50; omega⟩ : Fin 10000) q := by
    obtain ⟨e0, e1⟩ := out_idx8 t ht
    funext a; apply Fin.ext
    match a with
    | ⟨0, _⟩ => show win0_8.index t (0 : Fin 2) * 400 + 1 * p.val = 400 * (49 - t.val) + p.val; omega
    | ⟨1, _⟩ => show win0_8.index t (1 : Fin 2) * 128 + 1 * q.val = q.val; omega
  rw [he, mublk_eq m c t ht p q]
  rfl

theorem flushed9_eq (c : Dev nD) (t : Fin cfg0.N) (hf : (cfg0.win 9).flush t = true) :
    (dats m 0 c).flushed 9 t = ((cfg0.win 9).blk t).view.read (Elt Ideal) (Gls m c) := by
  have ht : 25 ≤ t.val := (flush0_9 t).mp hf
  show (cfg0.win 9).cut (grid0.coords t) ((dats m 0 c).after 9 t) = _
  rw [after0_9]
  funext j
  obtain ⟨p, q, rfl⟩ : ∃ (p : Fin 400) (q : Fin 128), j = ix2 p q := ⟨j 0, j 1, eq_ix2 j⟩
  show lsblk m c t (ix2 p q) = Gls m c (((cfg0.win 9).blk t).view.emb (ix2 p q))
  have he : ((cfg0.win 9).blk t).view.emb (ix2 p q)
      = ix2 (⟨400 * (49 - t.val) + p.val, by have := p.isLt; have := lt_of_lt_of_eq t.isLt N50; omega⟩ : Fin 10000) q := by
    obtain ⟨e0, e1⟩ := out_idx9 t ht
    funext a; apply Fin.ext
    match a with
    | ⟨0, _⟩ => show win0_9.index t (0 : Fin 2) * 400 + 1 * p.val = 400 * (49 - t.val) + p.val; omega
    | ⟨1, _⟩ => show win0_9.index t (1 : Fin 2) * 128 + 1 * q.val = q.val; omega
  rw [he, lsblk_eq m c t ht p q]
  rfl

/-- An index of a result is in point `t`'s block iff each coordinate is in the block's range on its axis. -/
theorem mem_blk8 (t : Fin cfg0.N) (i : S10000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v8_0).slice (win0_8.rect t)).set ↔ _
  rw [View.set_slice_whole, Rect.mem_set_unit]
  exact Iff.rfl

theorem mem_blk9 (t : Fin cfg0.N) (i : S10000x128.Idx) :
    i ∈ ((cfg0.win 9).blk t).view.set ↔ ∀ a : Fin 2, win0_9.index t a * S400x128.size a ≤ (i a).val ∧ (i a).val < win0_9.index t a * S400x128.size a + S400x128.size a := by
  show i ∈ ((View.whole main_v8_1).slice (win0_9.rect t)).set ↔ _
  rw [View.set_slice_whole, Rect.mem_set_unit]
  exact Iff.rfl

/-- Every row `r` of a result lies in the block written back at point `49 - r / 400` of the second pass. -/
theorem cover8 (i : S10000x128.Idx) : ∃ t : Fin cfg0.N, (cfg0.win 8).flush t = true ∧ i ∈ ((cfg0.win 8).blk t).view.set := by
  have hi0 : (i 0).val < 10000 := idx2_lt0 i
  have hi1 : (i 1).val < 128 := idx2_lt1 i
  let t : Fin cfg0.N := ⟨49 - (i 0).val / 400, lt_of_lt_of_eq (by omega : 49 - (i 0).val / 400 < 50) N50.symm⟩
  have ht : 25 ≤ t.val := by show 25 ≤ 49 - (i 0).val / 400; omega
  obtain ⟨e0, e1⟩ := out_idx8 t ht
  have e0' : win0_8.index t (0 : Fin 2) = (i 0).val / 400 := by rw [e0]; show 49 - (49 - (i 0).val / 400) = (i 0).val / 400; omega
  refine ⟨t, (flush0_8 t).mpr ht, ?_⟩
  rw [mem_blk8]
  intro a
  match a with
  | ⟨0, _⟩ => show win0_8.index t (0 : Fin 2) * 400 ≤ (i 0).val ∧ (i 0).val < win0_8.index t (0 : Fin 2) * 400 + 400; omega
  | ⟨1, _⟩ => show win0_8.index t (1 : Fin 2) * 128 ≤ (i 1).val ∧ (i 1).val < win0_8.index t (1 : Fin 2) * 128 + 128; omega

theorem cover9 (i : S10000x128.Idx) : ∃ t : Fin cfg0.N, (cfg0.win 9).flush t = true ∧ i ∈ ((cfg0.win 9).blk t).view.set := by
  have hi0 : (i 0).val < 10000 := idx2_lt0 i
  have hi1 : (i 1).val < 128 := idx2_lt1 i
  let t : Fin cfg0.N := ⟨49 - (i 0).val / 400, lt_of_lt_of_eq (by omega : 49 - (i 0).val / 400 < 50) N50.symm⟩
  have ht : 25 ≤ t.val := by show 25 ≤ 49 - (i 0).val / 400; omega
  obtain ⟨e0, e1⟩ := out_idx9 t ht
  have e0' : win0_9.index t (0 : Fin 2) = (i 0).val / 400 := by rw [e0]; show 49 - (49 - (i 0).val / 400) = (i 0).val / 400; omega
  refine ⟨t, (flush0_9 t).mpr ht, ?_⟩
  rw [mem_blk9]
  intro a
  match a with
  | ⟨0, _⟩ => show win0_9.index t (0 : Fin 2) * 400 ≤ (i 0).val ∧ (i 0).val < win0_9.index t (0 : Fin 2) * 400 + 400; omega
  | ⟨1, _⟩ => show win0_9.index t (1 : Fin 2) * 128 ≤ (i 1).val ∧ (i 1).val < win0_9.index t (1 : Fin 2) * 128 + 128; omega

/-- The two result arrays after the run. -/
theorem final8 (c : Dev nD) : (dats m 0 c).arrAt 8 cfg0.N = Gmu m c :=
  (dats m 0 c).arrAt_eq_of_cover 8 (Gmu m c) (fun t hf => flushed8_eq m c t hf) cover8

theorem final9 (c : Dev nD) : (dats m 0 c).arrAt 9 cfg0.N = Gls m c :=
  (dats m 0 c).arrAt_eq_of_cover 9 (Gls m c) (fun t hf => flushed9_eq m c t hf) cover9

/-! ## The run, read -/

/-- Every weakly fair execution of the idealized kernel terminates with the two results at the two output heads
    of the argument arrays, and the arguments unchanged. -/
theorem run : θ_run defs (onTc (τ := τ) (main (F := Ideal))) ⟨m, fun _ => 0, ρ⟩ fun r => ∀ c : Dev nD,
      r.2.mem ((c.tc : Thread nD τ).loc main_v8_0) = Gmu m c
      ∧ r.2.mem ((c.tc : Thread nD τ).loc main_v8_1) = Gls m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 8).trans (final8 m c), ((h c).1 9).trans (final9 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.ValueLeg

end
-- ==== Proof.RefValue.lean ====
import proofs.«137288_g73933567034016_fold_wed_c4_870_19_alg».proof.Defs
import proofs.«137288_g73933567034016_fold_wed_c4_870_19_alg».proof.Proof.Gen.ReferenceIdeal.Run
import proofs.«137288_g73933567034016_fold_wed_c4_870_19_alg».proof.Proof.Gen.ReferenceIdeal.Read
import proofs.«137288_g73933567034016_fold_wed_c4_870_19_alg».proof.Proof.Spec
import Idealize.ShloMosaic.Lib.IdealHost

noncomputable section

open scoped BigOperators

namespace Cert.RefSide

open Cert.ReferenceIdeal Cert.ReferenceIdeal.Read Idealize.ShloMosaic Idealize.ShloMosaic.ValueIdx

/-! ## One stage at a time

The reference is a composition of five kinds of stage: a dense product with a weight matrix, a product with the
adjacency matrix, a bias row broadcast down the rows, a pointwise gate, and a sum. Each stage is identified below
with the corresponding term of the specification, at the index with coordinates `(i, j)`; the stages are stated
for arbitrary operands, so that the second layer (whose left operand is the hidden layer, not an input) and both
output heads are instances of the same three lemmas. -/

/-- The dense product with a weight matrix is `support`: the sum over the shared axis, term by term. -/
theorem xw_eq (x : (⟨S10000x128, .f32⟩ : BufTy).Contents (Elt Ideal)) (W : (⟨S128x128, .f32⟩ : BufTy).Contents (Elt Ideal)) (k : Fin 10000) (j : Fin 128) :
    val_main_v0 (F := Ideal) x W (ix2 k j) = Cert.Spec.support (Cert.Spec.mat x) (Cert.Spec.mat W) k j := by
  rw [val_main_v0_apply]
  unfold Cert.Spec.support
  refine Finset.sum_congr rfl fun l _ => ?_
  have el : lidx_main_v0 (ix2 k j) l = ix2 k l :=
    funext fun a => Fin.ext (by match a with | ⟨0, _⟩ => rfl | ⟨1, _⟩ => rfl)
  have er : ridx_main_v0 (ix2 k j) l = ix2 l j :=
    funext fun a => Fin.ext (by match a with | ⟨0, _⟩ => rfl | ⟨1, _⟩ => rfl)
  rw [el, er]

/-- A bias row broadcast down the rows reads the row's entry at the column. -/
theorem bias_eq (b : (⟨S128, .f32⟩ : BufTy).Contents (Elt Ideal)) (i : Fin 10000) (j : Fin 128) :
    val_main_v3 (F := Ideal) b (ix2 i j) = Cert.Spec.vec b j := by
  rw [val_main_v3_apply, val_main_v2_apply]
  have e : idx_main_v2 (idx_main_v3 (ix2 i j)) = ix1 j :=
    funext fun a => Fin.ext (by match a with | ⟨0, _⟩ => rfl)
  rw [e]

/-- One graph convolution `adj (x W) + b` is `gconv` of `support`. -/
theorem gc_eq (x : (⟨S10000x128, .f32⟩ : BufTy).Contents (Elt Ideal)) (adj : (⟨S10000x10000, .f32⟩ : BufTy).Contents (Elt Ideal)) (W : (⟨S128x128, .f32⟩ : BufTy).Contents (Elt Ideal)) (b : (⟨S128, .f32⟩ : BufTy).Contents (Elt Ideal))
    (i : Fin 10000) (j : Fin 128) :
    val_main_v4 (F := Ideal) x adj W b (ix2 i j)
      = Cert.Spec.gconv (Cert.Spec.mat adj) (Cert.Spec.support (Cert.Spec.mat x) (Cert.Spec.mat W)) (Cert.Spec.vec b) i j := by
  rw [val_main_v4_apply, Ideal.addf_def, bias_eq, val_main_v1_apply]
  unfold Cert.Spec.gconv
  congr 1
  refine Finset.sum_congr rfl fun k _ => ?_
  have el : lidx_main_v1 (ix2 i j) k = ix2 i k :=
    funext fun a => Fin.ext (by match a with | ⟨0, _⟩ => rfl | ⟨1, _⟩ => rfl)
  have er : ridx_main_v1 (ix2 i j) k = ix2 k j :=
    funext fun a => Fin.ext (by match a with | ⟨0, _⟩ => rfl | ⟨1, _⟩ => rfl)
  rw [el, er, xw_eq]

/-- The constant one broadcast to every index is the extended real one. -/
theorem one_eq (i : S10000x128.Idx) : val_main_v13 (F := Ideal) i = 1 := by
  rw [val_main_v13_apply, val_main_cst_apply, Ideal.ofBits_def, Ideal.ofBits_one_f32]

/-- The gated hidden layer: the host spells the logistic function as `1 / (1 + exp (-z))`, which is its definition. -/
theorem hidden_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (k : Fin 10000) (l : Fin 128) :
    val_main_v17 (F := Ideal) x0 x1 x2 x3 x4 x5 (ix2 k l)
      = Cert.Spec.hidden (Cert.Spec.mat x0) (Cert.Spec.mat x1) (Cert.Spec.mat x2) (Cert.Spec.vec x3)
          (Cert.Spec.mat x4) (Cert.Spec.vec x5) k l := by
  have h10 : val_main_v10 (F := Ideal) x0 x1 x4 x5 (ix2 k l)
      = Cert.Spec.gconv (Cert.Spec.mat x1) (Cert.Spec.support (Cert.Spec.mat x0) (Cert.Spec.mat x4)) (Cert.Spec.vec x5) k l :=
    gc_eq x0 x1 x4 x5 k l
  have h15 : val_main_v15 (F := Ideal) (ix2 k l) = 1 := one_eq (ix2 k l)
  rw [val_main_v17_apply, val_main_v5_apply, val_main_v16_apply, val_main_v14_apply, val_main_v12_apply,
    val_main_v11_apply, h10, h15, one_eq, gc_eq, Ideal.mulf_def, Ideal.hostUnary_tanh_def, Ideal.hostDivf_def,
    Ideal.addf_def, Ideal.hostUnary_exp_def, Ideal.hostNegf_def, Ideal.negf_def]
  rfl

/-- The first result: the convolution of the hidden layer with the first pair of output weights. -/
theorem ref_mu (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Cert.ReferenceIdeal.Read.val_main_v22 (F := Ideal) x0 x1 x2 x3 x4 x5 x6 x7 = Cert.Spec.headArr x0 x1 x2 x3 x4 x5 x6 x7 := by
  funext y
  obtain ⟨i, j, rfl⟩ : ∃ i j, y = ix2 i j := ⟨y 0, y 1, eq_ix2 y⟩
  have hh : Cert.Spec.mat (val_main_v17 (F := Ideal) x0 x1 x2 x3 x4 x5)
      = Cert.Spec.hidden (Cert.Spec.mat x0) (Cert.Spec.mat x1) (Cert.Spec.mat x2) (Cert.Spec.vec x3)
          (Cert.Spec.mat x4) (Cert.Spec.vec x5) :=
    funext fun k => funext fun l => hidden_eq x0 x1 x2 x3 x4 x5 k l
  have h := gc_eq (val_main_v17 (F := Ideal) x0 x1 x2 x3 x4 x5) x1 x6 x7 i j
  rw [hh] at h
  exact h

/-- The second result: the same with the second pair of output weights. -/
theorem ref_ls (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x8 : (⟨S128x128, .f32⟩ : BufTy).Contents (Elt Ideal)) (x9 : (⟨S128, .f32⟩ : BufTy).Contents (Elt Ideal)) :
    Cert.ReferenceIdeal.Read.val_main_v27 (F := Ideal) x0 x1 x2 x3 x4 x5 x8 x9 = Cert.Spec.headArr x0 x1 x2 x3 x4 x5 x8 x9 :=
  ref_mu x0 x1 x2 x3 x4 x5 x8 x9

end Cert.RefSide

end
-- ==== Proof.lean ====
/-
  The certificate of a two-layer gated graph convolution computed in one pipelined kernel.

  The reference computes, with a dense adjacency matrix,
      t  = tanh (adj (x W1) + b1) * logistic (adj (x W2) + b2),   mu = adj (t Wmu) + bmu,   ls = adj (t Wls) + bls.
  The kernel streams the adjacency matrix twice over a grid of 2 x 25 points: in the first pass it forms the
  products x W1 and x W2 side by side once, then one 400-row slab of t per point, kept in a scratch buffer; in
  the second pass it forms t Wmu and t Wls side by side once, then one 400-row block of mu and of ls per point,
  walking the row blocks in reverse. Over the extended reals both programs are the same nested sums, grouped the
  same way, so they agree index by index with no use of the finiteness of the inputs: the precondition is never
  opened. The kernel's logistic function and the reference's 1 / (1 + exp (-z)) are one function there.

  The frames of the kernel and of its idealization are the same text read at the two instances: the body is run
  case by case over the four cases its conditionals select on the grid, under an invariant that names what the
  two scratch buffers hold after each point. The reference has no kernel; its frame is its run with the results
  dropped.
-/
import proofs.«137288_g73933567034016_fold_wed_c4_870_19_alg».proof.Defs
import proofs.«137288_g73933567034016_fold_wed_c4_870_19_alg».proof.Proof.Gen.Kernel
import proofs.«137288_g73933567034016_fold_wed_c4_870_19_alg».proof.Proof.Gen.KernelIdeal
import proofs.«137288_g73933567034016_fold_wed_c4_870_19_alg».proof.Proof.Gen.ReferenceIdeal
import proofs.«137288_g73933567034016_fold_wed_c4_870_19_alg».proof.Proof.Gen.Pre_finite_inputs
import proofs.«137288_g73933567034016_fold_wed_c4_870_19_alg».proof.Proof.Gen.ReferenceIdeal.Run
import proofs.«137288_g73933567034016_fold_wed_c4_870_19_alg».proof.Proof.Gen.ReferenceIdeal.Read
import proofs.«137288_g73933567034016_fold_wed_c4_870_19_alg».proof.Proof.Kernel.Body
import proofs.«137288_g73933567034016_fold_wed_c4_870_19_alg».proof.Proof.KernelIdeal.Body
import proofs.«137288_g73933567034016_fold_wed_c4_870_19_alg».proof.Proof.KernelValue
import proofs.«137288_g73933567034016_fold_wed_c4_870_19_alg».proof.Proof.RefValue

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing: there is nothing to preserve. -/
theorem preserves : Cert.preserves_Kernel_KernelIdeal := trivial

/-- Both idealized programs end with the two output heads of the specification of the (agreeing) arguments. -/
theorem algebraic : Cert.algebraic_KernelIdeal_ReferenceIdeal := by
  intro m ρ m' ρ' _ hagree
  refine ⟨fun c => Cert.KernelIdeal.ValueLeg.Gmu m c, fun c => Cert.KernelIdeal.ValueLeg.Gls m c,
    Cert.KernelIdeal.ValueLeg.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9⟩ := hagree c
    rw [Cert.ReferenceIdeal.Read.val_main_v22_eq, Cert.RefSide.ref_mu, e0, e1, e2, e3, e4, e5, e6, e7]
  · obtain ⟨e0, e1, e2, e3, e4, e5, e6, e7, e8, e9⟩ := hagree c
    rw [Cert.ReferenceIdeal.Read.val_main_v27_eq, Cert.RefSide.ref_ls, e0, e1, e2, e3, e4, e5, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
